-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v28) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x3 : Shape := ⟨2, ![32768, 3]⟩
abbrev S32768 : Shape := ⟨1, ![32768]⟩
abbrev S_ : Shape := ⟨0, ![]⟩

class Facts : Prop where
  bcast_S_S32768x3 : S_.BroadcastsInDim S32768x3 (![] : Fin 0 → Fin S32768x3.rank)
  reducesTo_S32768x3_S_d0_1 : S32768x3.ReducesTo [0, 1] S_
  h_S_ : 0 < S_.numel

variable [Facts]

def fn {F : FTy → Type} [FloatOps F] (main_arg0 : FVec F S32768x3 .f32) (main_arg1 : FVec F S32768x3 .f32) (main_arg2 : IVec S32768 32) (main_arg3 : IVec S32768 32) : IVec S_ 1 :=
  let main_v0 : FVec F S32768x3 .f32 := Host.absf main_arg0
  let main_cst : FVec F S_ .f32 := constant S_ .f32 0x7F800000#32
  let main_v1 : FVec F S32768x3 .f32 := broadcastInDim S32768x3 ![] bcast_S_S32768x3 main_cst
  let main_v2 : IVec S32768x3 1 := cmpf .olt main_v0 main_v1
  let main_c : IVec S_ 1 := constantI S_ 1 1#1
  let main_v3 : IVec S_ 1 := (fun x v => Host.reduce IntOp.andi x v reducesTo_S32768x3_S_d0_1 h_S_) main_v2 main_c
  let main_v4 : FVec F S32768x3 .f32 := Host.absf main_arg1
  let main_cst_0 : FVec F S_ .f32 := constant S_ .f32 0x7F800000#32
  let main_v5 : FVec F S32768x3 .f32 := broadcastInDim S32768x3 ![] bcast_S_S32768x3 main_cst_0
  let main_v6 : IVec S32768x3 1 := cmpf .olt main_v4 main_v5
  let main_c_1 : IVec S_ 1 := constantI S_ 1 1#1
  let main_v7 : IVec S_ 1 := (fun x v => Host.reduce IntOp.andi x v reducesTo_S32768x3_S_d0_1 h_S_) main_v6 main_c_1
  let main_v8 : IVec S_ 1 := andi main_v3 main_v7
  main_v8
-- ==== Kernel.lean ====
abbrev S32768x3 : Shape := ⟨2, ![32768, 3]⟩
abbrev S32768 : Shape := ⟨1, ![32768]⟩
abbrev S16x2048x3 : Shape := ⟨3, ![16, 2048, 3]⟩
abbrev S16x3x2048 : Shape := ⟨3, ![16, 3, 2048]⟩
abbrev S2048x3 : Shape := ⟨2, ![2048, 3]⟩
abbrev S1x3x2048 : Shape := ⟨3, ![1, 3, 2048]⟩
abbrev S2048 : Shape := ⟨1, ![2048]⟩
abbrev S2048x1 : Shape := ⟨2, ![2048, 1]⟩
abbrev S1x3x1024 : Shape := ⟨3, ![1, 3, 1024]⟩
abbrev S3x1024 : Shape := ⟨2, ![3, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S16 : Shape := ⟨1, ![16]⟩
abbrev S32768x1 : Shape := ⟨2, ![32768, 1]⟩

abbrev nBuf : Space → Nat
  | .hbm => 20
  | .vmem => 9
  | .smem => 0
  | _ => 0

abbrev bufTy : (tb : Table) → Fin (tcTables nBuf tb) → BufTy
  | .hbm, ⟨0, _⟩ => ⟨S32768x3, .f32⟩
  | .hbm, ⟨1, _⟩ => ⟨S32768x3, .f32⟩
  | .hbm, ⟨2, _⟩ => ⟨S32768, .i32⟩
  | .hbm, ⟨3, _⟩ => ⟨S32768, .i32⟩
  | .hbm, ⟨4, _⟩ => ⟨S16x2048x3, .f32⟩
  | .hbm, ⟨5, _⟩ => ⟨S16x3x2048, .f32⟩
  | .hbm, ⟨6, _⟩ => ⟨S32768, .f32⟩
  | .hbm, ⟨7, _⟩ => ⟨S32768, .f32⟩
  | .hbm, ⟨8, _⟩ => ⟨S_, .i32⟩
  | .hbm, ⟨9, _⟩ => ⟨S32768, .i32⟩
  | .hbm, ⟨10, _⟩ => ⟨S_, .i32⟩
  | .hbm, ⟨11, _⟩ => ⟨S16, .i32⟩
  | .hbm, ⟨12, _⟩ => ⟨S32768x1, .i32⟩
  | .hbm, ⟨13, _⟩ => ⟨S16, .i32⟩
  | .hbm, ⟨14, _⟩ => ⟨S_, .i32⟩
  | .hbm, ⟨15, _⟩ => ⟨S32768, .i32⟩
  | .hbm, ⟨16, _⟩ => ⟨S_, .i32⟩
  | .hbm, ⟨17, _⟩ => ⟨S16, .i32⟩
  | .hbm, ⟨18, _⟩ => ⟨S32768x1, .i32⟩
  | .hbm, ⟨19, _⟩ => ⟨S16, .i32⟩
  | .local _ .vmem, ⟨0, _⟩ => ⟨S2048x3, .f32⟩
  | .local _ .vmem, ⟨1, _⟩ => ⟨S2048x3, .f32⟩
  | .local _ .vmem, ⟨2, _⟩ => ⟨S1x3x2048, .f32⟩
  | .local _ .vmem, ⟨3, _⟩ => ⟨S1x3x2048, .f32⟩
  | .local _ .vmem, ⟨4, _⟩ => ⟨S2048, .f32⟩
  | .local _ .vmem, ⟨5, _⟩ => ⟨S2048, .f32⟩
  | .local _ .vmem, ⟨6, _⟩ => ⟨S2048, .f32⟩
  | .local _ .vmem, ⟨7, _⟩ => ⟨S2048, .f32⟩
  | .local _ .vmem, ⟨8, _⟩ => ⟨S2048x1, .f32⟩
  | _, _ => ⟨S32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c2_i32 : BitVec 32 := 2#32
  let v5 : BitVec 32 := Scalar.addi c0_i32 c2_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c1024_i32 : BitVec 32 := 1024#32
  let v9 : BitVec 32 := Scalar.muli arg6 c1024_i32
  v9
def k0_off1 (k0_t1 : Fin k0_t1_loop.trips) : Fin 3 → Nat :=
  let c0_7 : Index := 0#32
  let c0_8 : Index := 0#32
  let c0_i32 : BitVec 32 := 0#32
  let c1_i32 : BitVec 32 := 1#32
  let arg6 : BitVec 32 := Scf.iv c0_i32 c1_i32 k0_t1
  let c1024_i32 : BitVec 32 := 1024#32
  let v9 : BitVec 32 := Scalar.muli arg6 c1024_i32
  let v10 : BitVec 32 := v9
  let v11 : Index := Scalar.indexCast v10
  ![0, 0, v11.toNat]
def k0_off2 (k0_t1 : Fin k0_t1_loop.trips) : Fin 1 → Nat :=
  let c0_i32 : BitVec 32 := 0#32
  let c1_i32 : BitVec 32 := 1#32
  let arg6 : BitVec 32 := Scf.iv c0_i32 c1_i32 k0_t1
  let c1024_i32 : BitVec 32 := 1024#32
  let v9 : BitVec 32 := Scalar.muli arg6 c1024_i32
  let v10 : BitVec 32 := v9
  let v46 : Index := Scalar.indexCast v10
  ![v46.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32768x3_S16x2048x3 : S32768x3.ShapeCasts S16x2048x3
  transposes_S16x2048x3_S16x3x2048_0_2_1 : S16x2048x3.Transposes [0, 2, 1] S16x3x2048
  inb_S2048x3_S2048x3_0_0 : ∀ a, (![0, 0] : Fin 2 → Nat) a + S2048x3.size a ≤ S2048x3.size a
  h_S2048x3 : 0 < S2048x3.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  h_S1x3x1024 : 0 < S1x3x1024.numel
  shapeCasts_S1x3x1024_S3x1024 : S1x3x1024.ShapeCasts S3x1024
  slices_S2048x3_o0_0_S2048x1 : S2048x3.Slices ![0, 0] S2048x1
  slices_S3x1024_o0_0_S1x1024 : S3x1024.Slices ![0, 0] S1x1024
  broadcasts_S2048x1_S2048x1024 : S2048x1.Broadcasts S2048x1024
  broadcasts_S1x1024_S2048x1024 : S1x1024.Broadcasts S2048x1024
  slices_S2048x3_o0_1_S2048x1 : S2048x3.Slices ![0, 1] S2048x1
  slices_S3x1024_o1_0_S1x1024 : S3x1024.Slices ![1, 0] S1x1024
  slices_S2048x3_o0_2_S2048x1 : S2048x3.Slices ![0, 2] S2048x1
  slices_S3x1024_o2_0_S1x1024 : S3x1024.Slices ![2, 0] S1x1024
  reduces_S2048x1024_S2048 : S2048x1024.Reduces [1] S2048
  shapeCasts_S2048_S2048x1 : S2048.ShapeCasts S2048x1
  reduces_S2048x1024_S1024 : S2048x1024.Reduces [0] S1024
  h_S1024 : 0 < S1024.numel
  shapeCasts_S2048x1_S2048 : S2048x1.ShapeCasts S2048
  inb_S2048_S2048_0 : ∀ a, (![0] : Fin 1 → Nat) a + S2048.size a ≤ S2048.size a
  h_S2048 : 0 < S2048.numel
  bcast_S_S32768 : S_.BroadcastsInDim S32768 (![] : Fin 0 → Fin S32768.rank)
  bcast_S_S16 : S_.BroadcastsInDim S16 (![] : Fin 0 → Fin S16.rank)
  bcast_S32768_S32768x1_0 : S32768.BroadcastsInDim S32768x1 (![0] : Fin 1 → Fin S32768x1.rank)
  scatter_S16_S32768x1_S32768_n_0_0_1_wf : ScatterDims.WF S16 S32768x1 S32768 [] [0] [0] 1
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x3x1024.size a ≤ S1x3x2048.size a
  k0_off2_inb : ∀ k0_t1 : Fin k0_t1_loop.trips, ∀ a, (k0_off2 k0_t1) a + S1024.size a ≤ S2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S32768x3.size a
  hwx0_0 : ∀ i : grid0.Coords, EltTy.bits .f32 = 32 ∨ (Rect.block (s := S32768x3) S2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S16x3x2048.size a
  hwx0_1 : ∀ i : grid0.Coords, EltTy.bits .f32 = 32 ∨ (Rect.block (s := S16x3x2048) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S32768.size a
  hwx0_2 : ∀ i : grid0.Coords, EltTy.bits .f32 = 32 ∨ (Rect.block (s := S32768) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S32768.size a
  hwx0_3 : ∀ i : grid0.Coords, EltTy.bits .f32 = 32 ∨ (Rect.block (s := S32768) S2048.size (cc0_transform_3 i) (hinb0_3 i)).WholeWords (EltTy.packing .f32)

variable [Facts₀]

def scatter_S16_S32768x1_S32768_n_0_0_1 : ScatterDims S16 S32768x1 S32768 where
  updateWindowDims := []
  insertedWindowDims := [0]
  scatterDimsToOperandDims := [0]
  indexVectorDim := 1
  wf := scatter_S16_S32768x1_S32768_n_0_0_1_wf

abbrev win0_0 : Pipeline.Window sig grid0 :=
  Pipeline.Window.ofSpec (Memref.whole main_arg0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x3 : Shape := ⟨2, ![32768, 3]⟩
abbrev S32768 : Shape := ⟨1, ![32768]⟩
abbrev S16x2048x3 : Shape := ⟨3, ![16, 2048, 3]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S16x2048x2048 : Shape := ⟨3, ![16, 2048, 2048]⟩
abbrev S16 : Shape := ⟨1, ![16]⟩
abbrev S32768x1 : Shape := ⟨2, ![32768, 1]⟩

abbrev nBuf : Space → Nat
  | .hbm => 43
  | .vmem => 0
  | .smem => 0
  | _ => 0

abbrev bufTy : (tb : Table) → Fin (tcTables nBuf tb) → BufTy
  | .hbm, ⟨0, _⟩ => ⟨S32768x3, .f32⟩
  | .hbm, ⟨1, _⟩ => ⟨S32768x3, .f32⟩
  | .hbm, ⟨2, _⟩ => ⟨S32768, .i32⟩
  | .hbm, ⟨3, _⟩ => ⟨S32768, .i32⟩
  | .hbm, ⟨4, _⟩ => ⟨S16x2048x3, .f32⟩
  | .hbm, ⟨5, _⟩ => ⟨S16x2048x3, .f32⟩
  | .hbm, ⟨6, _⟩ => ⟨S16x2048x3, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S16x2048x3, .f32⟩
  | .hbm, ⟨11, _⟩ => ⟨S_, .f32⟩
  | .hbm, ⟨12, _⟩ => ⟨S16x2048, .f32⟩
  | .hbm, ⟨13, _⟩ => ⟨S16x1x2048, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2048x2048, .f32⟩
  | .hbm, ⟨24, _⟩ => ⟨S16x2048x2048, .f32⟩
  | .hbm, ⟨25, _⟩ => ⟨S_, .f32⟩
  | .hbm, ⟨26, _⟩ => ⟨S16x2048, .f32⟩
  | .hbm, ⟨27, _⟩ => ⟨S32768, .f32⟩
  | .hbm, ⟨28, _⟩ => ⟨S_, .f32⟩
  | .hbm, ⟨29, _⟩ => ⟨S16x2048, .f32⟩
  | .hbm, ⟨30, _⟩ => ⟨S32768, .f32⟩
  | .hbm, ⟨31, _⟩ => ⟨S_, .i32⟩
  | .hbm, ⟨32, _⟩ => ⟨S32768, .i32⟩
  | .hbm, ⟨33, _⟩ => ⟨S_, .i32⟩
  | .hbm, ⟨34, _⟩ => ⟨S16, .i32⟩
  | .hbm, ⟨35, _⟩ => ⟨S32768x1, .i32⟩
  | .hbm, ⟨36, _⟩ => ⟨S16, .i32⟩
  | .hbm, ⟨37, _⟩ => ⟨S_, .i32⟩
  | .hbm, ⟨38, _⟩ => ⟨S32768, .i32⟩
  | .hbm, ⟨39, _⟩ => ⟨S_, .i32⟩
  | .hbm, ⟨40, _⟩ => ⟨S16, .i32⟩
  | .hbm, ⟨41, _⟩ => ⟨S32768x1, .i32⟩
  | .hbm, ⟨42, _⟩ => ⟨S16, .i32⟩
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  shapeCasts_S32768x3_S16x2048x3 : S32768x3.ShapeCasts S16x2048x3
  reducesTo_S16x2048x3_S16x2048_d2 : S16x2048x3.ReducesTo [2] S16x2048
  h_S_ : 0 < S_.numel
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d2 : S16x2048x2048.ReducesTo [2] S16x2048
  shapeCasts_S16x2048_S32768 : S16x2048.ShapeCasts S32768
  reducesTo_S16x2048x2048_S16x2048_d1 : S16x2048x2048.ReducesTo [1] S16x2048
  bcast_S_S32768 : S_.BroadcastsInDim S32768 (![] : Fin 0 → Fin S32768.rank)
  bcast_S_S16 : S_.BroadcastsInDim S16 (![] : Fin 0 → Fin S16.rank)
  bcast_S32768_S32768x1_0 : S32768.BroadcastsInDim S32768x1 (![0] : Fin 1 → Fin S32768x1.rank)
  dot_S16x2048x3_S16x2048x3_S16x2048x2048_2_2_1_1_0_0_wf : DotDims.WF S16x2048x3 S16x2048x3 S16x2048x2048 [2] [2] [1] [1] [0] [0]
  scatter_S16_S32768x1_S32768_n_0_0_1_wf : ScatterDims.WF S16 S32768x1 S32768 [] [0] [0] 1

variable [Facts₀]

def dot_S16x2048x3_S16x2048x3_S16x2048x2048_2_2_1_1_0_0 : DotDims S16x2048x3 S16x2048x3 S16x2048x2048 where
  lhsContracting := [2]
  rhsContracting := [2]
  lhsNonContracting := [1]
  rhsNonContracting := [1]
  lhsBatch := [0]
  rhsBatch := [0]
  wf := dot_S16x2048x3_S16x2048x3_S16x2048x2048_2_2_1_1_0_0_wf
def scatter_S16_S32768x1_S32768_n_0_0_1 : ScatterDims S16 S32768x1 S32768 where
  updateWindowDims := []
  insertedWindowDims := [0]
  scatterDimsToOperandDims := [0]
  indexVectorDim := 1
  wf := scatter_S16_S32768x1_S32768_n_0_0_1_wf

class Facts : Prop extends Facts₀ where

variable [Facts]
-- ==== Proof.KernelTripPieces.lean ====
/-
  One trip of the kernel's chunk loop, read as values.

  The loop walks the 2048 key points of a cloud in two chunks of 1024.  Trip `k` reads chunk `k` of the
  transposed key block (lanes 1024 k … 1024 k + 1023), forms the 2048 × 1024 table of clamped squared
  distances, and leaves two stores: into the running-minimum column, the old column lowered by the
  table's row minima; into lanes 1024 k … of the second output, the table's column minima.
-/
import proofs.«416648_j18846316495074_3_alg».proof.Proof.Gen.Kernel.Loops

noncomputable section

namespace Cert.Kernel.Trip

open Idealize.ShloMosaic Idealize.ShloMosaic.TcCoe Idealize.SL.Sem
open Cert.Kernel Cert.Kernel.Gen

variable {F : FTy → Type} [FloatOps F]

/-- The loop makes two trips. -/
theorem trips_eq : k0_t1_loop.trips = 2 := by decide

/-- Trip `k` reads the key chunk that starts at lane `1024 k`, -/
theorem off1_eq (k : Fin k0_t1_loop.trips) : k0_off1 k = ![0, 0, 1024 * k.val] := by
  obtain ⟨kv, hk⟩ := k
  have h2 : kv < 2 := by rw [trips_eq] at hk; exact hk
  match kv, hk, h2 with
  | 0, _, _ => rfl
  | 1, _, _ => rfl
  | n + 2, _, h => exact absurd h (by omega)

/-- and writes the second output's lanes from `1024 k` on. -/
theorem off2_eq (k : Fin k0_t1_loop.trips) : k0_off2 k = ![1024 * k.val] := by
  obtain ⟨kv, hk⟩ := k
  have h2 : kv < 2 := by rw [trips_eq] at hk; exact hk
  match kv, hk, h2 with
  | 0, _, _ => rfl
  | 1, _, _ => rfl
  | n + 2, _, h => exact absurd h (by omega)

/-- What one trip stores, as pieces: the column minima of its distance table into its lanes of the second
    output; the running-minimum column, lowered by the table's row minima, over the whole scratch column. -/
theorem tripL_eq (𝒱 : Variants) (c : Dev nD) (bd : Option 𝒱.V) (i : grid0.Coords)
    (a1 : Memref sig .tc .vmem S2048x3 .f32) (h1 : a1.IsWhole) (a2 : Memref sig .tc .vmem S1x3x2048 .f32) (h2 : a2.IsWhole)
    (a3 : Memref sig .tc .vmem S2048 .f32) (h3 : a3.IsWhole) (a4 : Memref sig .tc .vmem S2048 .f32) (h4 : a4.IsWhole)
    (a5 : Memref sig .tc .vmem S2048x1 .f32) (h5 : a5.IsWhole)
    (v0 : Vec F S2048x3 .f32) (X : BufTy.Contents (Elt F) a2.view.ty) (k : Fin k0_t1_loop.trips)
    (f4 : BufTy.Contents (Elt F) a4.view.ty) (f5 : BufTy.Contents (Elt F) a5.view.ty) :
    tripL_k0_t1 (F := F) 𝒱 c bd i a1 h1 a2 h2 a3 h3 a4 h4 a5 h5 v0 X k f4 f5
      = ([⟨Rect.unit (s := S2048) (k0_off2 k) S1024.size (k0_off2_inb k),
            k0_pay4 v0 (View.readAt (Elt F) a2.view (Rect.unit (s := S1x3x2048) (k0_off1 k) S1x3x1024.size (k0_off1_inb k)).toLoadRect X)⟩],
         [⟨Rect.unit (s := S2048x1) ![0, 0] S2048x1.size inb_S2048x1_S2048x1_0_0,
            k0_pay3 v0 (View.readAt (Elt F) a2.view (Rect.unit (s := S1x3x2048) (k0_off1 k) S1x3x1024.size (k0_off1_inb k)).toLoadRect X)
              (View.readAt (Elt F) a5.view (Rect.unit (s := S2048x1) ![0, 0] S2048x1.size inb_S2048x1_S2048x1_0_0).toLoadRect f5)⟩]) := by
  unfold tripL_k0_t1
  unfold trip_k0_t1
  rfl

end Cert.Kernel.Trip

end
-- ==== Proof.KernelLoopPieces.lean ====
/-
  What the two trips of the chunk loop leave behind, as pieces.

  Over contents `G4` of the second output's buffer and `G5` of the running-minimum column the loop's two
  trips leave: in the second output two stores, the column minima of the second chunk's table over the
  upper 1024 lanes and those of the first chunk's table over the lower 1024 lanes; in the column two
  whole stores, the later one the earlier one's result lowered by the second table's row minima, the
  earlier one the entry contents lowered by the first table's row minima.
-/
import proofs.«416648_j18846316495074_3_alg».proof.Proof.KernelTripPieces

noncomputable section

namespace Cert.Kernel.Trip

open Idealize.ShloMosaic Idealize.ShloMosaic.TcCoe Idealize.SL.Sem
open Cert.Kernel Cert.Kernel.Gen

variable {F : FTy → Type} [FloatOps F]

/-- The two trips. -/
def k0 : Fin k0_t1_loop.trips := ⟨0, by rw [trips_eq]; decide⟩
def k1 : Fin k0_t1_loop.trips := ⟨1, by rw [trips_eq]; decide⟩

/-- The key chunk trip `k` loads. -/
abbrev chunk (a2 : Memref sig .tc .vmem S1x3x2048 .f32) (X : BufTy.Contents (Elt F) a2.view.ty) (k : Fin k0_t1_loop.trips) :
    Vec F S1x3x1024 .f32 :=
  View.readAt (Elt F) a2.view (Rect.unit (s := S1x3x2048) (k0_off1 k) S1x3x1024.size (k0_off1_inb k)).toLoadRect X

/-- The running-minimum column a trip finds, read whole. -/
abbrev colRead (a5 : Memref sig .tc .vmem S2048x1 .f32) (f5 : BufTy.Contents (Elt F) a5.view.ty) : Vec F S2048x1 .f32 :=
  View.readAt (Elt F) a5.view (Rect.unit (s := S2048x1) ![0, 0] S2048x1.size inb_S2048x1_S2048x1_0_0).toLoadRect f5

/-- The column after the first trip, over entry contents `G5`. -/
abbrev col0 (a2 : Memref sig .tc .vmem S1x3x2048 .f32) (a5 : Memref sig .tc .vmem S2048x1 .f32) (v0 : Vec F S2048x3 .f32)
    (X : BufTy.Contents (Elt F) a2.view.ty) (G5 : BufTy.Contents (Elt F) a5.view.ty) : Vec F S2048x1 .f32 :=
  k0_pay3 v0 (chunk a2 X k0) (colRead a5 G5)

/-- The pieces after both trips. -/
theorem pb_trips (𝒱 : Variants) (c : Dev nD) (bd : Option 𝒱.V) (i : grid0.Coords)
    (a1 : Memref sig .tc .vmem S2048x3 .f32) (h1 : a1.IsWhole) (a2 : Memref sig .tc .vmem S1x3x2048 .f32) (h2 : a2.IsWhole)
    (a3 : Memref sig .tc .vmem S2048 .f32) (h3 : a3.IsWhole) (a4 : Memref sig .tc .vmem S2048 .f32) (h4 : a4.IsWhole)
    (a5 : Memref sig .tc .vmem S2048x1 .f32) (h5 : a5.IsWhole)
    (v0 : Vec F S2048x3 .f32) (X : BufTy.Contents (Elt F) a2.view.ty)
    (G4 : BufTy.Contents (Elt F) a4.view.ty) (G5 : BufTy.Contents (Elt F) a5.view.ty) :
    pb_k0_t1 (F := F) 𝒱 c bd i a1 h1 a2 h2 a3 h3 a4 h4 a5 h5 v0 X G4 G5 k0_t1_loop.trips
      = ([⟨Rect.unit (s := S2048) (k0_off2 k1) S1024.size (k0_off2_inb k1), k0_pay4 v0 (chunk a2 X k1)⟩,
          ⟨Rect.unit (s := S2048) (k0_off2 k0) S1024.size (k0_off2_inb k0), k0_pay4 v0 (chunk a2 X k0)⟩],
         [⟨Rect.unit (s := S2048x1) ![0, 0] S2048x1.size inb_S2048x1_S2048x1_0_0,
            k0_pay3 v0 (chunk a2 X k1)
              (colRead a5 (a5.view.writes (Elt F) G5
                [⟨Rect.unit (s := S2048x1) ![0, 0] S2048x1.size inb_S2048x1_S2048x1_0_0, col0 a2 a5 v0 X G5⟩]))⟩,
          ⟨Rect.unit (s := S2048x1) ![0, 0] S2048x1.size inb_S2048x1_S2048x1_0_0, col0 a2 a5 v0 X G5⟩]) := by
  have s2 : (2 : ℕ) = (k1 : Fin k0_t1_loop.trips).val + 1 := rfl
  have s1 : (k1 : Fin k0_t1_loop.trips).val = (k0 : Fin k0_t1_loop.trips).val + 1 := rfl
  have e2 := pb_k0_t1_succ (F := F) 𝒱 c bd i a1 h1 a2 h2 a3 h3 a4 h4 a5 h5 v0 X G4 G5 k1
  have e1 := pb_k0_t1_succ (F := F) 𝒱 c bd i a1 h1 a2 h2 a3 h3 a4 h4 a5 h5 v0 X G4 G5 k0
  have z : pb_k0_t1 (F := F) 𝒱 c bd i a1 h1 a2 h2 a3 h3 a4 h4 a5 h5 v0 X G4 G5 (k0 : Fin k0_t1_loop.trips).val = ([], []) := rfl
  rw [tripL_eq, z] at e1
  rw [tripL_eq, congrArg (pb_k0_t1 (F := F) 𝒱 c bd i a1 h1 a2 h2 a3 h3 a4 h4 a5 h5 v0 X G4 G5) s1, e1] at e2
  refine (congrArg (pb_k0_t1 (F := F) 𝒱 c bd i a1 h1 a2 h2 a3 h3 a4 h4 a5 h5 v0 X G4 G5) (trips_eq.trans s2)).trans ?_
  exact e2

end Cert.Kernel.Trip

end
-- ==== Proof.TripPieces.lean ====
/-
  One trip of the kernel's chunk loop, read as values.

  The loop walks the 2048 key points of a cloud in two chunks of 1024.  Trip `k` reads chunk `k` of the
  transposed key block (lanes 1024 k … 1024 k + 1023), forms the 2048 × 1024 table of clamped squared
  distances, and leaves two stores: into the running-minimum column, the old column lowered by the
  table's row minima; into lanes 1024 k … of the second output, the table's column minima.
-/
import proofs.«416648_j18846316495074_3_alg».proof.Proof.Gen.KernelIdeal.Loops

noncomputable section

namespace Cert.KernelIdeal.Trip

open Idealize.ShloMosaic Idealize.ShloMosaic.TcCoe Idealize.SL.Sem
open Cert.KernelIdeal Cert.KernelIdeal.Gen

variable {F : FTy → Type} [FloatOps F]

/-- The loop makes two trips. -/
theorem trips_eq : k0_t1_loop.trips = 2 := by decide

/-- Trip `k` reads the key chunk that starts at lane `1024 k`, -/
theorem off1_eq (k : Fin k0_t1_loop.trips) : k0_off1 k = ![0, 0, 1024 * k.val] := by
  obtain ⟨kv, hk⟩ := k
  have h2 : kv < 2 := by rw [trips_eq] at hk; exact hk
  match kv, hk, h2 with
  | 0, _, _ => rfl
  | 1, _, _ => rfl
  | n + 2, _, h => exact absurd h (by omega)

/-- and writes the second output's lanes from `1024 k` on. -/
theorem off2_eq (k : Fin k0_t1_loop.trips) : k0_off2 k = ![1024 * k.val] := by
  obtain ⟨kv, hk⟩ := k
  have h2 : kv < 2 := by rw [trips_eq] at hk; exact hk
  match kv, hk, h2 with
  | 0, _, _ => rfl
  | 1, _, _ => rfl
  | n + 2, _, h => exact absurd h (by omega)

/-- What one trip stores, as pieces: the column minima of its distance table into its lanes of the second
    output; the running-minimum column, lowered by the table's row minima, over the whole scratch column. -/
theorem tripL_eq (𝒱 : Variants) (c : Dev nD) (bd : Option 𝒱.V) (i : grid0.Coords)
    (a1 : Memref sig .tc .vmem S2048x3 .f32) (h1 : a1.IsWhole) (a2 : Memref sig .tc .vmem S1x3x2048 .f32) (h2 : a2.IsWhole)
    (a3 : Memref sig .tc .vmem S2048 .f32) (h3 : a3.IsWhole) (a4 : Memref sig .tc .vmem S2048 .f32) (h4 : a4.IsWhole)
    (a5 : Memref sig .tc .vmem S2048x1 .f32) (h5 : a5.IsWhole)
    (v0 : Vec F S2048x3 .f32) (X : BufTy.Contents (Elt F) a2.view.ty) (k : Fin k0_t1_loop.trips)
    (f4 : BufTy.Contents (Elt F) a4.view.ty) (f5 : BufTy.Contents (Elt F) a5.view.ty) :
    tripL_k0_t1 (F := F) 𝒱 c bd i a1 h1 a2 h2 a3 h3 a4 h4 a5 h5 v0 X k f4 f5
      = ([⟨Rect.unit (s := S2048) (k0_off2 k) S1024.size (k0_off2_inb k),
            k0_pay4 v0 (View.readAt (Elt F) a2.view (Rect.unit (s := S1x3x2048) (k0_off1 k) S1x3x1024.size (k0_off1_inb k)).toLoadRect X)⟩],
         [⟨Rect.unit (s := S2048x1) ![0, 0] S2048x1.size inb_S2048x1_S2048x1_0_0,
            k0_pay3 v0 (View.readAt (Elt F) a2.view (Rect.unit (s := S1x3x2048) (k0_off1 k) S1x3x1024.size (k0_off1_inb k)).toLoadRect X)
              (View.readAt (Elt F) a5.view (Rect.unit (s := S2048x1) ![0, 0] S2048x1.size inb_S2048x1_S2048x1_0_0).toLoadRect f5)⟩]) := by
  unfold tripL_k0_t1
  unfold trip_k0_t1
  rfl

end Cert.KernelIdeal.Trip

end
-- ==== Proof.LoopPieces.lean ====
/-
  What the two trips of the chunk loop leave behind, as pieces.

  Over contents `G4` of the second output's buffer and `G5` of the running-minimum column the loop's two
  trips leave: in the second output two stores, the column minima of the second chunk's table over the
  upper 1024 lanes and those of the first chunk's table over the lower 1024 lanes; in the column two
  whole stores, the later one the earlier one's result lowered by the second table's row minima, the
  earlier one the entry contents lowered by the first table's row minima.
-/
import proofs.«416648_j18846316495074_3_alg».proof.Proof.TripPieces

noncomputable section

namespace Cert.KernelIdeal.Trip

open Idealize.ShloMosaic Idealize.ShloMosaic.TcCoe Idealize.SL.Sem
open Cert.KernelIdeal Cert.KernelIdeal.Gen

variable {F : FTy → Type} [FloatOps F]

/-- The two trips. -/
def k0 : Fin k0_t1_loop.trips := ⟨0, by rw [trips_eq]; decide⟩
def k1 : Fin k0_t1_loop.trips := ⟨1, by rw [trips_eq]; decide⟩

/-- The key chunk trip `k` loads. -/
abbrev chunk (a2 : Memref sig .tc .vmem S1x3x2048 .f32) (X : BufTy.Contents (Elt F) a2.view.ty) (k : Fin k0_t1_loop.trips) :
    Vec F S1x3x1024 .f32 :=
  View.readAt (Elt F) a2.view (Rect.unit (s := S1x3x2048) (k0_off1 k) S1x3x1024.size (k0_off1_inb k)).toLoadRect X

/-- The running-minimum column a trip finds, read whole. -/
abbrev colRead (a5 : Memref sig .tc .vmem S2048x1 .f32) (f5 : BufTy.Contents (Elt F) a5.view.ty) : Vec F S2048x1 .f32 :=
  View.readAt (Elt F) a5.view (Rect.unit (s := S2048x1) ![0, 0] S2048x1.size inb_S2048x1_S2048x1_0_0).toLoadRect f5

/-- The column after the first trip, over entry contents `G5`. -/
abbrev col0 (a2 : Memref sig .tc .vmem S1x3x2048 .f32) (a5 : Memref sig .tc .vmem S2048x1 .f32) (v0 : Vec F S2048x3 .f32)
    (X : BufTy.Contents (Elt F) a2.view.ty) (G5 : BufTy.Contents (Elt F) a5.view.ty) : Vec F S2048x1 .f32 :=
  k0_pay3 v0 (chunk a2 X k0) (colRead a5 G5)

/-- The pieces after both trips. -/
theorem pb_trips (𝒱 : Variants) (c : Dev nD) (bd : Option 𝒱.V) (i : grid0.Coords)
    (a1 : Memref sig .tc .vmem S2048x3 .f32) (h1 : a1.IsWhole) (a2 : Memref sig .tc .vmem S1x3x2048 .f32) (h2 : a2.IsWhole)
    (a3 : Memref sig .tc .vmem S2048 .f32) (h3 : a3.IsWhole) (a4 : Memref sig .tc .vmem S2048 .f32) (h4 : a4.IsWhole)
    (a5 : Memref sig .tc .vmem S2048x1 .f32) (h5 : a5.IsWhole)
    (v0 : Vec F S2048x3 .f32) (X : BufTy.Contents (Elt F) a2.view.ty)
    (G4 : BufTy.Contents (Elt F) a4.view.ty) (G5 : BufTy.Contents (Elt F) a5.view.ty) :
    pb_k0_t1 (F := F) 𝒱 c bd i a1 h1 a2 h2 a3 h3 a4 h4 a5 h5 v0 X G4 G5 k0_t1_loop.trips
      = ([⟨Rect.unit (s := S2048) (k0_off2 k1) S1024.size (k0_off2_inb k1), k0_pay4 v0 (chunk a2 X k1)⟩,
          ⟨Rect.unit (s := S2048) (k0_off2 k0) S1024.size (k0_off2_inb k0), k0_pay4 v0 (chunk a2 X k0)⟩],
         [⟨Rect.unit (s := S2048x1) ![0, 0] S2048x1.size inb_S2048x1_S2048x1_0_0,
            k0_pay3 v0 (chunk a2 X k1)
              (colRead a5 (a5.view.writes (Elt F) G5
                [⟨Rect.unit (s := S2048x1) ![0, 0] S2048x1.size inb_S2048x1_S2048x1_0_0, col0 a2 a5 v0 X G5⟩]))⟩,
          ⟨Rect.unit (s := S2048x1) ![0, 0] S2048x1.size inb_S2048x1_S2048x1_0_0, col0 a2 a5 v0 X G5⟩]) := by
  have s2 : (2 : ℕ) = (k1 : Fin k0_t1_loop.trips).val + 1 := rfl
  have s1 : (k1 : Fin k0_t1_loop.trips).val = (k0 : Fin k0_t1_loop.trips).val + 1 := rfl
  have e2 := pb_k0_t1_succ (F := F) 𝒱 c bd i a1 h1 a2 h2 a3 h3 a4 h4 a5 h5 v0 X G4 G5 k1
  have e1 := pb_k0_t1_succ (F := F) 𝒱 c bd i a1 h1 a2 h2 a3 h3 a4 h4 a5 h5 v0 X G4 G5 k0
  have z : pb_k0_t1 (F := F) 𝒱 c bd i a1 h1 a2 h2 a3 h3 a4 h4 a5 h5 v0 X G4 G5 (k0 : Fin k0_t1_loop.trips).val = ([], []) := rfl
  rw [tripL_eq, z] at e1
  rw [tripL_eq, congrArg (pb_k0_t1 (F := F) 𝒱 c bd i a1 h1 a2 h2 a3 h3 a4 h4 a5 h5 v0 X G4 G5) s1, e1] at e2
  refine (congrArg (pb_k0_t1 (F := F) 𝒱 c bd i a1 h1 a2 h2 a3 h3 a4 h4 a5 h5 v0 X G4 G5) (trips_eq.trans s2)).trans ?_
  exact e2

end Cert.KernelIdeal.Trip

end
-- ==== Proof.ChamferSpec.lean ====
/-
  What the Chamfer computation returns, as functions of the two point arrays over the extended reals.

  The 32768 points of each array are sixteen clouds of 2048 points in ℝ³, cloud `b`'s point `n` in row
  `2048 b + n`.  For a point of one array the result is the least clamped squared distance to the points
  of the SAME cloud in the other array: `distX` for the points of the first array, `distY` for those of
  the second.  The squared distance is accumulated from zero coordinate by coordinate and clamped below
  at zero; the least value is a fold of `min` from `⊤`.
-/
import Idealize.ShloMosaic.PureOps.Ideal
import Idealize.ShloMosaic.Lib.ValueIdx

noncomputable section

namespace Chamfer

open Idealize.ShloMosaic Idealize.ShloMosaic.ValueIdx

/-- The row of cloud `b`'s point `n` in a flat [32768, 3] array. -/
def row (b : Fin 16) (n : Fin 2048) : Fin 32768 :=
  ⟨b.val * 2048 + n.val, by have := b.isLt; have := n.isLt; omega⟩

/-- The cloud a flat position belongs to, and its place inside the cloud. -/
def cloud (i : Fin 32768) : Fin 16 := ⟨i.val / 2048, by have := i.isLt; omega⟩
def within (i : Fin 32768) : Fin 2048 := ⟨i.val % 2048, by omega⟩

theorem row_cloud_within (i : Fin 32768) : row (cloud i) (within i) = i :=
  Fin.ext (by show i.val / 2048 * 2048 + i.val % 2048 = i.val; omega)

/-- The three coordinates of cloud `b`'s point `n`. -/
def pt (X : (⟨2, ![32768, 3]⟩ : Shape).Idx → EReal) (b : Fin 16) (n : Fin 2048) : Fin 3 → EReal :=
  fun k => X (ix2 (row b n) k)

/-- The squared distance of two points, accumulated from zero one coordinate at a time, clamped at zero. -/
def sq (a b : Fin 3 → EReal) : EReal :=
  max ((((0 + (a 0 - b 0) * (a 0 - b 0)) + (a 1 - b 1) * (a 1 - b 1)) + (a 2 - b 2) * (a 2 - b 2))) 0

/-- For each point of `X`: the least clamped squared distance to a point of `Y` in the same cloud. -/
def distX (X Y : (⟨2, ![32768, 3]⟩ : Shape).Idx → EReal) : (⟨1, ![32768]⟩ : Shape).Idx → EReal :=
  fun i => Finset.univ.fold min ⊤ fun mm : Fin 2048 => sq (pt X (cloud (i 0)) (within (i 0))) (pt Y (cloud (i 0)) mm)

/-- For each point of `Y`: the least clamped squared distance to a point of `X` in the same cloud. -/
def distY (X Y : (⟨2, ![32768, 3]⟩ : Shape).Idx → EReal) : (⟨1, ![32768]⟩ : Shape).Idx → EReal :=
  fun i => Finset.univ.fold min ⊤ fun nn : Fin 2048 => sq (pt X (cloud (i 0)) nn) (pt Y (cloud (i 0)) (within (i 0)))

end Chamfer

end
-- ==== Proof.SqDist.lean ====
/-
  Scalar facts about squared distances in three dimensions over the extended reals.

  For finite points a, b of ℝ³ the sum of squared coordinate differences, accumulated from zero one
  coordinate at a time, equals |a|² + |b|² − 2⟨a, b⟩, each of the three sums also accumulated from zero.
  Finiteness matters: the expansion distributes products over differences, which fails at ±∞.
  Also the three float patterns the two programs spell, as the extended reals they denote.
-/
import Idealize.ShloMosaic.PureOps.Ideal

noncomputable section

namespace Chamfer

open Idealize.ShloMosaic

/-- The pattern of `+0.0` denotes `0`. -/
theorem ofBits_zero : Ideal.ofBits .f32 0x00000000#32 = 0 := by
  simp [Ideal.ofBits, Ideal.ieee]

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `+∞` denotes `⊤`. -/
theorem ofBits_inf : Ideal.ofBits .f32 0x7F800000#32 = (⊤ : EReal) := by
  simp [Ideal.ofBits, Ideal.ieee]

/-- The squared distance of two finite points, expanded: the coordinate-wise accumulation on the left,
    the norms-and-inner-product form on the right. -/
theorem sq_dist_expand (a0 a1 a2 b0 b1 b2 : ℝ) :
    (((0 : EReal) + ((a0 : EReal) - b0) * ((a0 : EReal) - b0)) + ((a1 : EReal) - b1) * ((a1 : EReal) - b1))
        + ((a2 : EReal) - b2) * ((a2 : EReal) - b2)
      = (((0 : EReal) + ((a0 : EReal) * a0 + (a1 : EReal) * a1 + (a2 : EReal) * a2))
          + ((0 : EReal) + ((b0 : EReal) * b0 + (b1 : EReal) * b1 + (b2 : EReal) * b2)))
        - ((2 : ℝ) : EReal) * ((a0 : EReal) * b0 + (a1 : EReal) * b1 + (a2 : EReal) * b2) := by
  rw [← EReal.coe_zero]
  simp only [← EReal.coe_mul, ← EReal.coe_add, ← EReal.coe_sub]
  congr 1
  ring

end Chamfer

end
-- ==== Proof.LibMinReduceSingle.lean ====
/-
  A float minimum-reduction over ONE axis, read over the extended reals.

  At the ideal instance `minimumf` is `min` on the extended reals, which commutes and associates, so a
  `vector.multi_reduction <minimumf>` over one axis is, at a result index `j`, the fold of `min` from the
  accumulator's value over that axis's coordinates: `j` with the coordinate inserted on the reduced axis.
  (The library states this for `<maximumf>`; this is the same statement for `<minimumf>`, general in the
  shapes, the axis and the format.)
-/
import Idealize.ShloMosaic.PureOps.Ideal.Laws

noncomputable section

namespace Idealize.ShloMosaic.Ideal

variable {φ : FTy}

/-- A float `vector.multi_reduction <minimumf>` over one axis, read at `Ideal`: the fold of `min` from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal

end
-- ==== Proof.PayloadValues.lean ====
/-
  The kernel body's arithmetic, read index by index over the extended reals.

  With a query block `x0` (2048 points, three coordinates each) and a chunk `v12` of 1024 key points
  (stored coordinate-major) the body forms the table of clamped squared distances: at (n, j) the squared
  distance of query point n and key point j of the chunk, accumulated from zero coordinate by
  coordinate and clamped at zero — `Chamfer.sq`.  The running-minimum column is lowered, row by row, by
  the least entry of the table's row; the second output receives, lane by lane, the least entry of the
  table's column.  Both least entries are folds of `min` from `⊤` (the pattern of +∞).
-/
import proofs.«416648_j18846316495074_3_alg».proof.Proof.Gen.KernelIdeal.Skeleton
import proofs.«416648_j18846316495074_3_alg».proof.Proof.ChamferSpec
import proofs.«416648_j18846316495074_3_alg».proof.Proof.SqDist
import proofs.«416648_j18846316495074_3_alg».proof.Proof.LibMinReduceSingle
import Idealize.ShloMosaic.Lib.Pipeline.Value
import Idealize.ShloMosaic.Lib.ValueIdx
import Idealize.ShloMosaic.Lib.ValueLayout

noncomputable section

open Idealize.ShloMosaic Idealize.ShloMosaic.ValueIdx

namespace Cert.KernelIdeal.Pay

open Cert.KernelIdeal Cert.KernelIdeal.Gen

/-- Coordinate `d` of the query points, spread over the lanes: at (n, j) it is query point n's coordinate. -/
theorem xcol_apply (x0 : Vec Ideal S2048x3 .f32) (d : Fin 3) (off : Fin 2 → Nat) (hoff : off = ![0, d.val])
    (hs : S2048x3.Slices off S2048x1) (hb : S2048x1.Broadcasts S2048x1024) (n : Fin 2048) (j : Fin 1024) :
    broadcastTo S2048x1024 (extractStridedSlice S2048x1 off x0 hs) hb (ix2 n j) = x0 (ix2 n d) := by
  subst hoff
  rw [broadcastTo_apply _ hb (ix2 n j) (ix2 n (0 : Fin 1)) (fun a => by
    match a with
    | ⟨0, _⟩ => rfl
    | ⟨1, _⟩ => rfl)]
  exact extractStridedSlice_apply _ x0 hs _ (ix2 n d) (fun a => by
    match a with
    | ⟨0, _⟩ => exact (Nat.zero_add _).symm
    | ⟨1, _⟩ => rfl)

/-- Coordinate `d` of the chunk's key points, spread over the sublanes: at (n, j) it is key point j's coordinate. -/
theorem ycol_apply (v12 : Vec Ideal S1x3x1024 .f32) (d : Fin 3) (off : Fin 2 → Nat) (hoff : off = ![d.val, 0])
    (hc : S1x3x1024.ShapeCasts S3x1024) (hs : S3x1024.Slices off S1x1024) (hb : S1x1024.Broadcasts S2048x1024)
    (n : Fin 2048) (j : Fin 1024) :
    broadcastTo S2048x1024 (extractStridedSlice S1x1024 off (shapeCast S3x1024 v12 hc) hs) hb (ix2 n j)
      = v12 (ix3 (0 : Fin 1) d j) := by
  subst hoff
  rw [broadcastTo_1b_ab_apply]
  rw [extractStridedSlice_apply _ _ hs _ (ix2 d j) (fun a => by
    match a with
    | ⟨0, _⟩ => rfl
    | ⟨1, _⟩ => exact (Nat.zero_add _).symm)]
  exact shapeCast_1ab_ab_apply v12 hc d j

/-- The distance table at (n, j): the clamped squared distance of query point n and the chunk's key point j. -/
theorem pay2_apply (x0 : Vec Ideal S2048x3 .f32) (v12 : Vec Ideal S1x3x1024 .f32) (n : Fin 2048) (j : Fin 1024) :
    k0_pay2 (F := Ideal) x0 v12 (ix2 n j)
      = Chamfer.sq (fun d => x0 (ix2 n d)) (fun d => v12 (ix3 (0 : Fin 1) d j)) := by
  unfold k0_pay2
  simp only [maximumf_apply, addf_apply, mulf_apply, subf_apply, broadcast_apply]
  rw [xcol_apply x0 0 ![0, 0] rfl, xcol_apply x0 1 ![0, 1] rfl, xcol_apply x0 2 ![0, 2] rfl,
    ycol_apply v12 0 ![0, 0] rfl, ycol_apply v12 1 ![1, 0] rfl, ycol_apply v12 2 ![2, 0] rfl]
  rw [Ideal.ofBits_def, Chamfer.ofBits_zero]
  rfl

/-- The row-minimum step at row n: the old running minimum against the least entry of the table's row n. -/
theorem pay3_apply (x0 : Vec Ideal S2048x3 .f32) (v12 : Vec Ideal S1x3x1024 .f32) (v38 : Vec Ideal S2048x1 .f32)
    (n : Fin 2048) :
    k0_pay3 (F := Ideal) x0 v12 v38 (ix2 n (0 : Fin 1))
      = min (v38 (ix2 n (0 : Fin 1)))
          (Finset.univ.fold min ⊤ fun j : Fin 1024 => Chamfer.sq (fun d => x0 (ix2 n d)) (fun d => v12 (ix3 (0 : Fin 1) d j))) := by
  unfold k0_pay3
  simp only [shapeCast_self, minimumf_apply]
  rw [shapeCast_apply _ shapeCasts_S2048_S2048x1 (ix2 n (0 : Fin 1)) (ix1 n) (by
    rw [Shape.rowMajor_val_one, Shape.rowMajor_val_two]; show n.val = n.val * 1 + 0; omega)]
  refine congrArg (min (v38 (ix2 n (0 : Fin 1)))) ?_
  refine (Ideal.multiReduction_minimumf_single (k0_pay2 (F := Ideal) x0 v12) _ reduces_S2048x1024_S2048 _ _ (ix1 n)).trans ?_
  rw [Ideal.ofBits_def, Chamfer.ofBits_inf]
  refine Finset.fold_congr fun j _ => ?_
  refine Eq.trans ?_ (pay2_apply x0 v12 n j)
  show k0_pay2 (F := Ideal) x0 v12 _ = _
  refine congrArg _ (funext fun a => ?_)
  match a with
  | ⟨0, _⟩ => rfl
  | ⟨1, _⟩ => rfl

/-- The column minimum at lane j: the least entry of the table's column j. -/
theorem pay4_apply (x0 : Vec Ideal S2048x3 .f32) (v12 : Vec Ideal S1x3x1024 .f32) (j : Fin 1024) :
    k0_pay4 (F := Ideal) x0 v12 (ix1 j)
      = Finset.univ.fold min ⊤ fun n : Fin 2048 => Chamfer.sq (fun d => x0 (ix2 n d)) (fun d => v12 (ix3 (0 : Fin 1) d j)) := by
  unfold k0_pay4
  refine (Ideal.multiReduction_minimumf_single (k0_pay2 (F := Ideal) x0 v12) _ reduces_S2048x1024_S1024 _ _ (ix1 j)).trans ?_
  rw [Ideal.ofBits_def, Chamfer.ofBits_inf]
  refine Finset.fold_congr fun n _ => ?_
  refine Eq.trans ?_ (pay2_apply x0 v12 n j)
  show k0_pay2 (F := Ideal) x0 v12 _ = _
  refine congrArg _ (funext fun a => ?_)
  match a with
  | ⟨0, _⟩ => rfl
  | ⟨1, _⟩ => rfl

/-- The first output is the running-minimum column laid flat. -/
theorem pay5_apply (v6 : Vec Ideal S2048x1 .f32) (n : Fin 2048) :
    k0_pay5 (F := Ideal) v6 (ix1 n) = v6 (ix2 n (0 : Fin 1)) := by
  unfold k0_pay5
  exact shapeCast_apply _ shapeCasts_S2048x1_S2048 (ix1 n) (ix2 n (0 : Fin 1)) (by
    rw [Shape.rowMajor_val_one, Shape.rowMajor_val_two]; show n.val * 1 + 0 = n.val; omega)

/-- The running minimum starts at `⊤`. -/
theorem pay1_apply (y : S2048x1.Idx) : k0_pay1 (F := Ideal) y = (⊤ : EReal) := by
  unfold k0_pay1
  simp only [shapeCast_self, broadcast_apply]
  exact Chamfer.ofBits_inf

end Cert.KernelIdeal.Pay

end
-- ==== Proof.LibReadBackWhole.lean ====
/-
  Reading a whole buffer back after a whole-buffer store.

  A store through the whole-shape rectangle at zero offsets, made LAST, decides everything a later load
  through that same rectangle reads: the load returns the store's payload, whatever the buffer held
  before and whatever the earlier stores were.  (A running accumulator kept in a scratch buffer: each
  step loads the whole buffer, and the last whole store is what it finds.)
-/
import Idealize.ShloMosaic.Lib.Pipeline.Value

noncomputable section

namespace Idealize.ShloMosaic.View

variable {Val : EltTy → Type} {S : Shape} {e : EltTy} {sig : RefSig} {κ : Kind} {sp : Space}

/-- A load through the whole-shape rectangle, of contents whose LAST write was a store through it, reads that
    store's payload. -/
theorem readAt_writes_cons_unit_zero [∀ e, Nonempty (Val e)] (v : View sig κ sp S e) (f : v.ty.Contents Val)
    {off : Fin S.rank → Nat} (h : off = fun _ => 0) (inb : ∀ a, off a + S.size a ≤ S.size a)
    (w : S.Idx → Val e) (L : List (Piece Val S e)) :
    v.readAt Val (Rect.unit off S.size inb).toLoadRect
        (v.writes Val f ((⟨Rect.unit off S.size inb, w⟩ : Piece Val S e) :: L)) = w := by
  rw [readAt_eq_ld, read_writes_eq_canon v f _ (fun y => ⟨_, List.mem_cons_self, mem_set_unit_zero h inb y⟩),
    canon_cons_unit_zero h inb, ld_unit_zero h inb]

end Idealize.ShloMosaic.View

end
-- ==== Proof.MinFold.lean ====
/-
  A minimum over 2048 candidates taken in two halves of 1024.

  Folding `min` from `⊤` over a finite family is its infimum; the infimum over `Fin 2048` is the
  minimum of the infima over the lower and the upper half, and a leading `min ⊤ ·` changes nothing.
  Everything is read through the universal property `c ≤ fold min b f ↔ c ≤ b ∧ ∀ x, c ≤ f x`.
-/
import Idealize.ShloMosaic.PureOps.Ideal

namespace Chamfer

/-- The running minimum kept over two chunks of 1024 candidates, started at `⊤`, is the minimum over all
    2048: `g` lists the lower half of `f`, `h` the upper half. -/
theorem fold_min_two_chunks (f : Fin 2048 → EReal) (g h : Fin 1024 → EReal)
    (hg : ∀ k : Fin 1024, g k = f ⟨k.val, by omega⟩)
    (hh : ∀ k : Fin 1024, h k = f ⟨1024 + k.val, by omega⟩) :
    min (min ⊤ (Finset.univ.fold min ⊤ g)) (Finset.univ.fold min ⊤ h) = Finset.univ.fold min ⊤ f := by
  refine eq_of_forall_le_iff fun c => ?_
  simp only [le_min_iff, Finset.le_fold_min, le_top, true_and, Finset.mem_univ, forall_true_left, hg, hh]
  constructor
  · rintro ⟨h1, h2⟩ x
    by_cases hx : x.val < 1024
    · exact h1 ⟨x.val, hx⟩
    · have h3 := h2 ⟨x.val - 1024, by omega⟩
      have e : (⟨1024 + (x.val - 1024), by omega⟩ : Fin 2048) = x := Fin.ext (by show 1024 + (x.val - 1024) = x.val; omega)
      simpa only [e] using h3
  · intro h0
    exact ⟨fun k => h0 _, fun k => h0 _⟩

end Chamfer
-- ==== Proof.KernelColumns.lean ====
/-
  The two columns the chunk loop keeps, and what the body leaves in its two outputs, index by index.

  With query block `x0` and key block `x1` (coordinate-major, 2048 key points): chunk `k` of the key block
  holds key points 1024 k … 1024 k + 1023.  The running-minimum column starts at `⊤`; the first trip lowers
  row n by the least clamped squared distance from query point n to the first 1024 key points, the second
  trip by the least one to the last 1024.  Read back and laid flat, entry n of the first output is the
  least clamped squared distance from query point n to ALL 2048 key points.  Lane j of the second output
  is the least clamped squared distance from key point j to all 2048 query points: the lower 1024 lanes
  come from the first trip, the upper 1024 from the second.
-/
import proofs.«416648_j18846316495074_3_alg».proof.Proof.KernelIdealRunA
import proofs.«416648_j18846316495074_3_alg».proof.Proof.PayloadValues
import proofs.«416648_j18846316495074_3_alg».proof.Proof.LibReadBackWhole
import proofs.«416648_j18846316495074_3_alg».proof.Proof.MinFold
import Idealize.ShloMosaic.Lib.WholeRead

noncomputable section

open Idealize.ShloMosaic Idealize.ShloMosaic.TcCoe Idealize.SL.Sem Idealize.ShloMosaic.ValueIdx

namespace Cert.KernelIdeal.Col

open Cert.KernelIdeal Cert.KernelIdeal.Gen Cert.KernelIdeal.GenP Cert.KernelIdeal.Trip Cert.KernelIdeal.Pay

theorem hz1 : (![0] : Fin 1 → Nat) = fun _ => 0 := funext fun a => by fin_cases a; rfl
theorem hz2 : (![0, 0] : Fin 2 → Nat) = fun _ => 0 := funext fun a => by fin_cases a <;> rfl

/-- The clamped squared distance of the query block's point n and the key block's point mm. -/
abbrev dist (x0 : Vec Ideal S2048x3 .f32) (x1 : Vec Ideal S1x3x2048 .f32) (n mm : Fin 2048) : EReal :=
  Chamfer.sq (fun d => x0 (ix2 n d)) (fun d => x1 (ix3 (0 : Fin 1) d mm))

/-- The body loads the whole query block. -/
theorem ldX_eq (a1 : Memref sig .tc .vmem S2048x3 .f32) (h1 : a1.IsWhole) (x0 : Vec Ideal S2048x3 .f32) :
    ldX (F := Ideal) a1 h1 x0 = x0 := by
  unfold ldX
  rw [View.readAt_eq_ld, h1.read_unread, View.ld_unit_zero hz2]

/-- Chunk `k` of the key block: its point j is the block's point 1024 k + j. -/
theorem chunk_apply (a2 : Memref sig .tc .vmem S1x3x2048 .f32) (h2 : a2.IsWhole) (x1 : Vec Ideal S1x3x2048 .f32)
    (k : Fin k0_t1_loop.trips) (d : Fin 3) (j : Fin 1024) (hj : 1024 * k.val + j.val < 2048) :
    chunk (F := Ideal) a2 (h2.unread x1) k (ix3 (0 : Fin 1) d j) = x1 (ix3 (0 : Fin 1) d ⟨1024 * k.val + j.val, hj⟩) := by
  unfold chunk
  rw [Memref.IsWhole.readAt_unread]
  refine congrArg x1 (funext fun a => Fin.ext ?_)
  match a with
  | ⟨0, _⟩ => show k0_off1 k 0 + 1 * 0 = 0; rw [off1_eq]; rfl
  | ⟨1, _⟩ => show k0_off1 k 1 + 1 * d.val = d.val; rw [off1_eq]; show 0 + 1 * d.val = d.val; omega
  | ⟨2, _⟩ => show k0_off1 k 2 + 1 * j.val = 1024 * k.val + j.val; rw [off1_eq]; show 1024 * k.val + 1 * j.val = _; omega

/-- The least clamped squared distance from query point n to the key points of chunk `k`. -/
abbrev rowMin (x0 : Vec Ideal S2048x3 .f32) (x1 : Vec Ideal S1x3x2048 .f32) (k : Fin k0_t1_loop.trips)
    (hk : ∀ j : Fin 1024, 1024 * k.val + j.val < 2048) (n : Fin 2048) : EReal :=
  Finset.univ.fold min ⊤ fun j : Fin 1024 => dist x0 x1 n ⟨1024 * k.val + j.val, hk j⟩

theorem hk0 (j : Fin 1024) : 1024 * (k0 : Fin k0_t1_loop.trips).val + j.val < 2048 := by
  show 1024 * 0 + j.val < 2048; omega
theorem hk1 (j : Fin 1024) : 1024 * (k1 : Fin k0_t1_loop.trips).val + j.val < 2048 := by
  show 1024 * 1 + j.val < 2048; omega

/-- One row-minimum step over a key chunk, at row n. -/
theorem step_apply (a2 : Memref sig .tc .vmem S1x3x2048 .f32) (h2 : a2.IsWhole) (x0 : Vec Ideal S2048x3 .f32)
    (x1 : Vec Ideal S1x3x2048 .f32) (k : Fin k0_t1_loop.trips) (hk : ∀ j : Fin 1024, 1024 * k.val + j.val < 2048)
    (v38 : Vec Ideal S2048x1 .f32) (n : Fin 2048) :
    k0_pay3 (F := Ideal) x0 (chunk a2 (h2.unread x1) k) v38 (ix2 n (0 : Fin 1))
      = min (v38 (ix2 n (0 : Fin 1))) (rowMin x0 x1 k hk n) := by
  rw [pay3_apply]
  refine congrArg (min _) (Finset.fold_congr fun j _ => ?_)
  show Chamfer.sq _ _ = Chamfer.sq _ _
  refine congrArg (Chamfer.sq _) (funext fun d => ?_)
  exact chunk_apply a2 h2 x1 k d j (hk j)

/-- The column after the first trip, at row n. -/
theorem colA_apply (a1 : Memref sig .tc .vmem S2048x3 .f32) (h1 : a1.IsWhole) (a2 : Memref sig .tc .vmem S1x3x2048 .f32) (h2 : a2.IsWhole)
    (a5 : Memref sig .tc .vmem S2048x1 .f32) (x0 : Vec Ideal S2048x3 .f32) (x1 : Vec Ideal S1x3x2048 .f32) (n : Fin 2048) :
    colA (F := Ideal) a1 h1 a2 h2 a5 x0 x1 (ix2 n (0 : Fin 1)) = min ⊤ (rowMin x0 x1 k0 hk0 n) := by
  unfold colA col0 colRead colReset
  rw [ldX_eq, View.readAt_writes_cons_unit_zero _ _ hz2, step_apply a2 h2 x0 x1 k0 hk0, pay1_apply]

/-- The column after the second trip, at row n. -/
theorem colB_apply (a1 : Memref sig .tc .vmem S2048x3 .f32) (h1 : a1.IsWhole) (a2 : Memref sig .tc .vmem S1x3x2048 .f32) (h2 : a2.IsWhole)
    (a5 : Memref sig .tc .vmem S2048x1 .f32) (x0 : Vec Ideal S2048x3 .f32) (x1 : Vec Ideal S1x3x2048 .f32) (n : Fin 2048) :
    colB (F := Ideal) a1 h1 a2 h2 a5 x0 x1 (ix2 n (0 : Fin 1))
      = min (min ⊤ (rowMin x0 x1 k0 hk0 n)) (rowMin x0 x1 k1 hk1 n) := by
  unfold colB colRead
  rw [ldX_eq, View.readAt_writes_cons_unit_zero _ _ hz2, step_apply a2 h2 x0 x1 k1 hk1, colA_apply]

/-- After both trips the column's row n holds the least clamped squared distance to all 2048 key points. -/
theorem colB_eq (a1 : Memref sig .tc .vmem S2048x3 .f32) (h1 : a1.IsWhole) (a2 : Memref sig .tc .vmem S1x3x2048 .f32) (h2 : a2.IsWhole)
    (a5 : Memref sig .tc .vmem S2048x1 .f32) (x0 : Vec Ideal S2048x3 .f32) (x1 : Vec Ideal S1x3x2048 .f32) (n : Fin 2048) :
    colB (F := Ideal) a1 h1 a2 h2 a5 x0 x1 (ix2 n (0 : Fin 1)) = Finset.univ.fold min ⊤ fun mm : Fin 2048 => dist x0 x1 n mm := by
  rw [colB_apply]
  exact Chamfer.fold_min_two_chunks (fun mm => dist x0 x1 n mm) _ _
    (fun k => congrArg (dist x0 x1 n) (Fin.ext (by show 1024 * 0 + k.val = k.val; omega)))
    (fun k => congrArg (dist x0 x1 n) (Fin.ext (by show 1024 * 1 + k.val = 1024 + k.val; omega)))

end Cert.KernelIdeal.Col

end
-- ==== Proof.KernelOutputs.lean ====
/-
  What one grid point leaves in the two output blocks, index by index.

  First output, entry n: the least clamped squared distance from the query block's point n to the key
  block's 2048 points.  Second output, lane j: the least clamped squared distance from the key block's
  point j to the query block's 2048 points; the lower 1024 lanes are the first trip's store, the upper
  1024 the second trip's, and each store's payload is the column minimum of its chunk's distance table.
-/
import proofs.«416648_j18846316495074_3_alg».proof.Proof.KernelIdealFrame
import proofs.«416648_j18846316495074_3_alg».proof.Proof.KernelColumns

set_option maxRecDepth 16384

noncomputable section

open Idealize.ShloMosaic Idealize.ShloMosaic.TcCoe Idealize.SL.Sem Idealize.ShloMosaic.ValueIdx

namespace Cert.KernelIdeal.Out

open Cert.KernelIdeal Cert.KernelIdeal.Gen Cert.KernelIdeal.GenP Cert.KernelIdeal.Trip Cert.KernelIdeal.Pay Cert.KernelIdeal.Col

/-- The first output block at entry n. -/
theorem out2_apply (c : Dev nD) (i : grid0.Coords) (a1 : Memref sig .tc .vmem S2048x3 .f32) (h1 : a1.IsWhole)
    (a2 : Memref sig .tc .vmem S1x3x2048 .f32) (h2 : a2.IsWhole) (a3 : Memref sig .tc .vmem S2048 .f32) (h3 : a3.IsWhole)
    (a4 : Memref sig .tc .vmem S2048 .f32) (h4 : a4.IsWhole) (a5 : Memref sig .tc .vmem S2048x1 .f32) (h5 : a5.IsWhole)
    (x0 : Vec Ideal S2048x3 .f32) (x1 : Vec Ideal S1x3x2048 .f32) (n : Fin 2048) :
    out0_A_2 (F := Ideal) c i a1 h1 a2 h2 a3 h3 a4 h4 a5 h5 x0 x1 (ix1 n)
      = Finset.univ.fold min ⊤ fun mm : Fin 2048 => dist x0 x1 n mm := by
  unfold out0_A_2
  rw [View.read_writes_eq_canon _ _ _ (cover0_A_2 c i a1 h1 a2 h2 a3 h3 a4 h4 a5 h5 x0 x1)]
  unfold kernelRun0_A
  dsimp only
  rw [View.canon_unit_zero hz1, pay5_apply]
  simp only [List.cons_append, List.nil_append]
  rw [View.readAt_writes_cons_unit_zero _ _ hz2]
  exact colB_eq a1 h1 a2 h2 a5 x0 x1 n

/-- The least clamped squared distance from the key block's point at a lane to the query block's points. -/
abbrev colMin (x0 : Vec Ideal S2048x3 .f32) (x1 : Vec Ideal S1x3x2048 .f32) : S2048.Idx → EReal :=
  fun y => Finset.univ.fold min ⊤ fun n : Fin 2048 => dist x0 x1 n (y 0)

/-- A trip's store into the second output agrees with `colMin` on its lanes. -/
theorem piece3_agrees (a1 : Memref sig .tc .vmem S2048x3 .f32) (h1 : a1.IsWhole) (a2 : Memref sig .tc .vmem S1x3x2048 .f32) (h2 : a2.IsWhole)
    (x0 : Vec Ideal S2048x3 .f32) (x1 : Vec Ideal S1x3x2048 .f32) (k : Fin k0_t1_loop.trips)
    (hk : ∀ j : Fin 1024, 1024 * k.val + j.val < 2048) (p : View.Piece (Elt Ideal) S2048 .f32)
    (hp : p = ⟨Rect.unit (s := S2048) (k0_off2 k) S1024.size (k0_off2_inb k),
      k0_pay4 (F := Ideal) (ldX a1 h1 x0) (chunk a2 (h2.unread x1) k)⟩) :
    ∀ x : p.1.shape.Idx, p.2 x = colMin x0 x1 (p.1.emb x) := by
  subst hp
  intro x
  dsimp only
  obtain ⟨j, rfl⟩ : ∃ j : Fin 1024, x = ix1 j := ⟨x 0, eq_ix1 x⟩
  rw [ldX_eq, pay4_apply]
  refine Finset.fold_congr fun n _ => ?_
  show Chamfer.sq _ _ = Chamfer.sq _ _
  refine congrArg (Chamfer.sq _) (funext fun d => ?_)
  rw [chunk_apply a2 h2 x1 k d j (hk j)]
  refine congrArg x1 (funext fun a => Fin.ext ?_)
  match a with
  | ⟨0, _⟩ => rfl
  | ⟨1, _⟩ => rfl
  | ⟨2, _⟩ => show 1024 * k.val + j.val = k0_off2 k 0 + 1 * j.val; rw [off2_eq]; show _ = 1024 * k.val + 1 * j.val; omega

/-- The second output block at lane j. -/
theorem out3_apply (c : Dev nD) (i : grid0.Coords) (a1 : Memref sig .tc .vmem S2048x3 .f32) (h1 : a1.IsWhole)
    (a2 : Memref sig .tc .vmem S1x3x2048 .f32) (h2 : a2.IsWhole) (a3 : Memref sig .tc .vmem S2048 .f32) (h3 : a3.IsWhole)
    (a4 : Memref sig .tc .vmem S2048 .f32) (h4 : a4.IsWhole) (a5 : Memref sig .tc .vmem S2048x1 .f32) (h5 : a5.IsWhole)
    (x0 : Vec Ideal S2048x3 .f32) (x1 : Vec Ideal S1x3x2048 .f32) (j : Fin 2048) :
    out0_A_3 (F := Ideal) c i a1 h1 a2 h2 a3 h3 a4 h4 a5 h5 x0 x1 (ix1 j)
      = Finset.univ.fold min ⊤ fun n : Fin 2048 => dist x0 x1 n j := by
  unfold out0_A_3
  rw [View.read_writes_eq_canon _ _ _ (cover0_A_3 c i a1 h1 a2 h2 a3 h3 a4 h4 a5 h5 x0 x1)]
  refine View.canon_apply_of_pieces (colMin x0 x1) _ ?_ (ix1 j) (cover0_A_3 c i a1 h1 a2 h2 a3 h3 a4 h4 a5 h5 x0 x1 (ix1 j))
  unfold kernelRun0_A
  dsimp only
  intro p hp
  simp only [List.mem_cons, List.mem_nil_iff, or_false] at hp
  rcases hp with h | h
  · exact piece3_agrees a1 h1 a2 h2 x0 x1 k1 hk1 p h
  · exact piece3_agrees a1 h1 a2 h2 x0 x1 k0 hk0 p h

end Cert.KernelIdeal.Out

end
-- ==== Proof.KernelBlocks.lean ====
/-
  What the kernel's two input windows hold at a grid point, in terms of the argument arrays.

  Grid point `t` works on cloud `t`.  The first window's block is the cloud's 2048 query points: row `n`
  of the block is row `2048 t + n` of the first argument.  The second window's array is the second
  argument regrouped by cloud and transposed (coordinate-major), so the block's entry (0, d, j) is
  coordinate `d` of the cloud's key point `j`: entry (2048 t + j, d) of the second argument.
-/
import proofs.«416648_j18846316495074_3_alg».proof.Proof.Gen.KernelIdeal.Frame.Runs
import proofs.«416648_j18846316495074_3_alg».proof.Proof.ChamferSpec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blk

open Cert.KernelIdeal Cert.KernelIdeal.Gen

variable (m : (ℓ : Loc nD τ sig) → Buf (Elt Ideal) ℓ)

/-- The cloud grid point `t` works on. -/
def cl (t : Fin cfg0.N) : Fin 16 := ⟨t.val, N_0 ▸ t.isLt⟩

/-- The printed index maps, decided over the grid: every window's block index is the grid point on the
    leading axis and zero elsewhere. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 1) = t.val ∧ win0_3.index t (0 : Fin 1) = t.val :=
  (by decide +kernel : ∀ t : Fin grid0.N, _)

/-- The query block and the key block at a point, at their literal types. -/
abbrev xblk (c : Dev nD) (t : Fin cfg0.N) : Vec Ideal S2048x3 .f32 := iblk m c 0 t
abbrev yblk (c : Dev nD) (t : Fin cfg0.N) : Vec Ideal S1x3x2048 .f32 := iblk m c 1 t

/-- Row `n` of the query block is the cloud's point `n` in the first argument. -/
theorem xblk_apply (c : Dev nD) (t : Fin cfg0.N) (n : Fin 2048) (d : Fin 3) :
    xblk m c t (ix2 n d) = m ((c : Thread nD τ).loc main_arg0) (ix2 (Chamfer.row (cl t) n) d) := by
  obtain ⟨e0, e1, -⟩ := idx_facts t
  unfold xblk iblk
  rw [View.read_apply]
  show V m c main_arg0 _ = _
  rw [V_main_arg0]
  refine congrArg _ (funext fun a => Fin.ext ?_)
  match a with
  | ⟨0, _⟩ => show win0_0.index t (0 : Fin 2) * 2048 + 1 * n.val = t.val * 2048 + n.val; rw [e0]; omega
  | ⟨1, _⟩ => show win0_0.index t (1 : Fin 2) * 3 + 1 * d.val = d.val; rw [e1]; omega

/-- The second window's array: the second argument regrouped by cloud, each cloud transposed. -/
theorem V_main_v1 (c : Dev nD) :
    (V m c main_v1 : S16x3x2048.Idx → Ideal .f32)
      = transpose S16x3x2048 [0, 2, 1] (shapeCast S16x2048x3 (m ((c : Thread nD τ).loc main_arg1)) shapeCasts_S32768x3_S16x2048x3)
          transposes_S16x2048x3_S16x3x2048_0_2_1 := by
  show StableHlo.after hostOps0 (fun b => m (c, b)) (Proc.devRef .tc main_v1) = _
  after_results
  rfl

/-- Entry (0, d, j) of the key block is coordinate `d` of the cloud's point `j` in the second argument. -/
theorem yblk_apply (c : Dev nD) (t : Fin cfg0.N) (d : Fin 3) (j : Fin 2048) :
    yblk m c t (ix3 (0 : Fin 1) d j) = m ((c : Thread nD τ).loc main_arg1) (ix2 (Chamfer.row (cl t) j) d) := by
  obtain ⟨-, -, e0, e1, e2, -⟩ := idx_facts t
  unfold yblk iblk
  rw [View.read_apply]
  show V m c main_v1 _ = _
  rw [V_main_v1]
  have hk : ((cfg0.win 1).blk t).view.emb (ix3 (0 : Fin 1) d j) = ix3 (cl t) d j := by
    funext a; apply Fin.ext
    match a with
    | ⟨0, _⟩ => show win0_1.index t (0 : Fin 3) * 1 + 1 * 0 = t.val; rw [e0]; omega
    | ⟨1, _⟩ => show win0_1.index t (1 : Fin 3) * 3 + 1 * d.val = d.val; rw [e1]; omega
    | ⟨2, _⟩ => show win0_1.index t (2 : Fin 3) * 2048 + 1 * j.val = j.val; rw [e2]; omega
  rw [hk, transpose_ix3_021_apply]
  exact shapeCast_apply _ _ (ix3 (cl t) j d) (ix2 (Chamfer.row (cl t) j) d) (by
    rw [Shape.rowMajor_val_two, Shape.rowMajor_val_three]
    show (t.val * 2048 + j.val) * 3 + d.val = (t.val * 2048 + j.val) * 3 + d.val
    rfl)

end Cert.KernelIdeal.Blk

end
-- ==== Proof.KernelArrays.lean ====
/-
  The kernel's two result arrays after the run, as functions of the argument arrays.

  Grid point `t` writes back block `t` of each output: entries 2048 t … 2048 t + 2047.  What it writes is,
  entry by entry, the specification's `distX` / `distY` of the two argument arrays restricted to cloud
  `t`; the sixteen blocks tile the 32768 entries (position i lies in block i / 2048), so each array ends
  as the specification's function.
-/
import proofs.«416648_j18846316495074_3_alg».proof.Proof.KernelOutputs
import proofs.«416648_j18846316495074_3_alg».proof.Proof.KernelBlocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.GenP Cert.KernelIdeal.Blk Cert.KernelIdeal.Col Cert.KernelIdeal.Out

variable (m : (ℓ : Loc nD τ sig) → Buf (Elt Ideal) ℓ) (ρ : Dev nD → PrngReg)

/-- A flat position inside block `t`: cloud `t`, place `n`. -/
theorem cloud_row (b : Fin 16) (n : Fin 2048) : Chamfer.cloud (Chamfer.row b n) = b :=
  Fin.ext (by show (b.val * 2048 + n.val) / 2048 = b.val; have := n.isLt; omega)
theorem within_row (b : Fin 16) (n : Fin 2048) : Chamfer.within (Chamfer.row b n) = n :=
  Fin.ext (by show (b.val * 2048 + n.val) % 2048 = n.val; have := n.isLt; omega)

/-- The distances inside a point's blocks are the specification's distances inside cloud `t`. -/
theorem dist_blocks (c : Dev nD) (t : Fin cfg0.N) (n mm : Fin 2048) :
    dist (xblk m c t) (yblk m c t) n mm
      = Chamfer.sq (Chamfer.pt (m ((c : Thread nD τ).loc main_arg0)) (cl t) n) (Chamfer.pt (m ((c : Thread nD τ).loc main_arg1)) (cl t) mm) := by
  show Chamfer.sq _ _ = Chamfer.sq _ _
  congr 1
  · funext d; exact xblk_apply m c t n d
  · funext d; exact yblk_apply m c t d mm

/-- Entry `n` of a block of an output array sits at flat position 2048 t + n. -/
theorem emb2 (t : Fin cfg0.N) (n : Fin 2048) : ((cfg0.win 2).blk t).view.emb (ix1 n) = ix1 (Chamfer.row (cl t) n) := by
  obtain ⟨-, -, -, -, -, e2, -⟩ := idx_facts t
  funext a; apply Fin.ext
  match a with
  | ⟨0, _⟩ => show win0_2.index t (0 : Fin 1) * 2048 + 1 * n.val = t.val * 2048 + n.val; rw [e2]; omega
theorem emb3 (t : Fin cfg0.N) (n : Fin 2048) : ((cfg0.win 3).blk t).view.emb (ix1 n) = ix1 (Chamfer.row (cl t) n) := by
  obtain ⟨-, -, -, -, -, -, e3⟩ := idx_facts t
  funext a; apply Fin.ext
  match a with
  | ⟨0, _⟩ => show win0_3.index t (0 : Fin 1) * 2048 + 1 * n.val = t.val * 2048 + n.val; rw [e3]; omega

/-- What point `t` writes back into the first output is block `t` of `distX`. -/
theorem flushed2_eq (c : Dev nD) (t : Fin cfg0.N) :
    (dats m 0 c).flushed 2 t
      = ((cfg0.win 2).blk t).view.read (Elt Ideal) (Chamfer.distX (m ((c : Thread nD τ).loc main_arg0)) (m ((c : Thread nD τ).loc main_arg1))) := by
  show (cfg0.win 2).cut (grid0.coords t) ((dats m 0 c).after 2 t) = _
  rw [after0_2]
  unfold outsAt0
  dsimp only
  funext y
  obtain ⟨n, rfl⟩ : ∃ n : Fin 2048, y = ix1 n := ⟨y 0, eq_ix1 y⟩
  rw [View.read_apply, emb2]
  refine (out2_apply c _ _ _ _ _ _ _ _ _ _ _ (xblk m c t) (yblk m c t) n).trans ?_
  show _ = Finset.univ.fold min (⊤ : EReal) fun mm : Fin 2048 =>
    Chamfer.sq (Chamfer.pt _ (Chamfer.cloud (Chamfer.row (cl t) n)) (Chamfer.within (Chamfer.row (cl t) n)))
      (Chamfer.pt _ (Chamfer.cloud (Chamfer.row (cl t) n)) mm)
  rw [cloud_row, within_row]
  exact Finset.fold_congr fun mm _ => dist_blocks m c t n mm

/-- What point `t` writes back into the second output is block `t` of `distY`. -/
theorem flushed3_eq (c : Dev nD) (t : Fin cfg0.N) :
    (dats m 0 c).flushed 3 t
      = ((cfg0.win 3).blk t).view.read (Elt Ideal) (Chamfer.distY (m ((c : Thread nD τ).loc main_arg0)) (m ((c : Thread nD τ).loc main_arg1))) := by
  show (cfg0.win 3).cut (grid0.coords t) ((dats m 0 c).after 3 t) = _
  rw [after0_3]
  unfold outsAt0
  dsimp only
  funext y
  obtain ⟨j, rfl⟩ : ∃ j : Fin 2048, y = ix1 j := ⟨y 0, eq_ix1 y⟩
  rw [View.read_apply, emb3]
  refine (out3_apply c _ _ _ _ _ _ _ _ _ _ _ (xblk m c t) (yblk m c t) j).trans ?_
  show _ = Finset.univ.fold min (⊤ : EReal) fun nn : Fin 2048 =>
    Chamfer.sq (Chamfer.pt _ (Chamfer.cloud (Chamfer.row (cl t) j)) nn)
      (Chamfer.pt _ (Chamfer.cloud (Chamfer.row (cl t) j)) (Chamfer.within (Chamfer.row (cl t) j)))
  rw [cloud_row, within_row]
  exact Finset.fold_congr fun nn _ => dist_blocks m c t nn j

/-- A flat position is in point `t`'s block of the first output iff it lies in the block's range. -/
theorem mem_blk2 (t : Fin cfg0.N) (i : S32768.Idx) :
    i ∈ ((cfg0.win 2).blk t).view.set ↔ ∀ a : Fin 1, win0_2.index t a * S2048.size a ≤ (i a).val ∧ (i a).val < win0_2.index t a * S2048.size a + S2048.size a := by
  show i ∈ ((View.whole main_v2_0).slice (win0_2.rect t)).set ↔ _
  rw [View.set_slice_whole, Rect.mem_set_unit]
  exact Iff.rfl
theorem mem_blk3 (t : Fin cfg0.N) (i : S32768.Idx) :
    i ∈ ((cfg0.win 3).blk t).view.set ↔ ∀ a : Fin 1, win0_3.index t a * S2048.size a ≤ (i a).val ∧ (i a).val < win0_3.index t a * S2048.size a + S2048.size a := by
  show i ∈ ((View.whole main_v2_1).slice (win0_3.rect t)).set ↔ _
  rw [View.set_slice_whole, Rect.mem_set_unit]
  exact Iff.rfl

/-- The point whose block holds flat position `i`: `i / 2048`. -/
def pointOf (i : S32768.Idx) : Fin cfg0.N := ⟨(i 0).val / 2048, by rw [show cfg0.N = 16 from N_0]; have : (i 0).val < 32768 := (i 0).isLt; omega⟩

theorem cover2 (i : S32768.Idx) : ∃ t : Fin cfg0.N, (cfg0.win 2).flush t = true ∧ i ∈ ((cfg0.win 2).blk t).view.set := by
  refine ⟨pointOf i, flush0_2 _, ?_⟩
  rw [mem_blk2]
  obtain ⟨-, -, -, -, -, e2, -⟩ := idx_facts (pointOf i)
  intro a
  match a with
  | ⟨0, _⟩ =>
    show win0_2.index (pointOf i) (0 : Fin 1) * 2048 ≤ (i 0).val ∧ (i 0).val < win0_2.index (pointOf i) (0 : Fin 1) * 2048 + 2048
    rw [e2]; show (i 0).val / 2048 * 2048 ≤ (i 0).val ∧ (i 0).val < (i 0).val / 2048 * 2048 + 2048; omega
theorem cover3 (i : S32768.Idx) : ∃ t : Fin cfg0.N, (cfg0.win 3).flush t = true ∧ i ∈ ((cfg0.win 3).blk t).view.set := by
  refine ⟨pointOf i, flush0_3 _, ?_⟩
  rw [mem_blk3]
  obtain ⟨-, -, -, -, -, -, e3⟩ := idx_facts (pointOf i)
  intro a
  match a with
  | ⟨0, _⟩ =>
    show win0_3.index (pointOf i) (0 : Fin 1) * 2048 ≤ (i 0).val ∧ (i 0).val < win0_3.index (pointOf i) (0 : Fin 1) * 2048 + 2048
    rw [e3]; show (i 0).val / 2048 * 2048 ≤ (i 0).val ∧ (i 0).val < (i 0).val / 2048 * 2048 + 2048; omega

/-- The first output array after the run. -/
theorem final2 (c : Dev nD) :
    (dats m 0 c).arrAt 2 cfg0.N = Chamfer.distX (m ((c : Thread nD τ).loc main_arg0)) (m ((c : Thread nD τ).loc main_arg1)) :=
  (dats m 0 c).arrAt_eq_of_cover 2 _ (fun t _ => flushed2_eq m c t) cover2

/-- The second output array after the run. -/
theorem final3 (c : Dev nD) :
    (dats m 0 c).arrAt 3 cfg0.N = Chamfer.distY (m ((c : Thread nD τ).loc main_arg0)) (m ((c : Thread nD τ).loc main_arg1)) :=
  (dats m 0 c).arrAt_eq_of_cover 3 _ (fun t _ => flushed3_eq m c t) cover3

end Cert.KernelIdeal.Arr

end
-- ==== Proof.KernelRun.lean ====
/-
  The idealized kernel program's run, read: its four results as functions of its four arguments.

  The two float results are the region's two output arrays, `distX` and `distY` of the point arrays.  The
  two integer results are computed after the region by host operations that read only the id arrays:
  ones scatter-added by the ids into sixteen zeros (the sizes of the segments); the region changes
  neither id array, so each is that function of the id array as launched.
-/
import proofs.«416648_j18846316495074_3_alg».proof.Proof.KernelArrays
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.GenP Cert.KernelIdeal.Arr

variable (m : (ℓ : Loc nD τ sig) → Buf (Elt Ideal) ℓ) (ρ : Dev nD → PrngReg)

/-- The first segment-size result: ones scatter-added into sixteen zeros by the first id array. -/
theorem tail_v6 (c : Dev nD) :
    Pipeline.afterTail₀ cfgs (dats m) 0 (V0 m) [hostOps1] c main_v6
      = Host.scatter scatter_S16_S32768x1_S32768_n_0_0_1 IntOp.addi
          (broadcastInDim S16 ![] bcast_S_S16 (constantI S_ 32 0#32))
          (broadcastInDim S32768x1 ![0] bcast_S32768_S32768x1_0 (m ((c : Thread nD τ).loc main_arg2)))
          (broadcastInDim S32768 ![] bcast_S_S32768 (constantI S_ 32 1#32)) := by
  unfold Pipeline.afterTail₀
  show StableHlo.after hostOps1 _ (Proc.devRef .tc main_v6) = _
  after_results
  rw [Pipeline.withArrays_of_ne _ c (V0 m c) _ main_arg2 (by exact (by decide : ∀ w, Pipeline.arrRef spec0 w ≠ main_arg2))]
  rw [show V0 m c (Proc.devRef .tc main_arg2) = m ((c : Thread nD τ).loc main_arg2) from V_main_arg2 m c]

/-- The second segment-size result, by the second id array. -/
theorem tail_v10 (c : Dev nD) :
    Pipeline.afterTail₀ cfgs (dats m) 0 (V0 m) [hostOps1] c main_v10
      = Host.scatter scatter_S16_S32768x1_S32768_n_0_0_1 IntOp.addi
          (broadcastInDim S16 ![] bcast_S_S16 (constantI S_ 32 0#32))
          (broadcastInDim S32768x1 ![0] bcast_S32768_S32768x1_0 (m ((c : Thread nD τ).loc main_arg3)))
          (broadcastInDim S32768 ![] bcast_S_S32768 (constantI S_ 32 1#32)) := by
  unfold Pipeline.afterTail₀
  show StableHlo.after hostOps1 _ (Proc.devRef .tc main_v10) = _
  after_results
  rw [Pipeline.withArrays_of_ne _ c (V0 m c) _ main_arg3 (by exact (by decide : ∀ w, Pipeline.arrRef spec0 w ≠ main_arg3))]
  rw [show V0 m c (Proc.devRef .tc main_arg3) = m ((c : Thread nD τ).loc main_arg3) from V_main_arg3 m c]

/-- Every weakly fair execution of the idealized kernel program terminates with its four results at these
    functions of the arguments and the arguments unchanged. -/
theorem run_spec : θ_run defs (onTc (τ := τ) (main (F := Ideal))) ⟨m, fun _ => 0, ρ⟩ fun r => ∀ c : Dev nD,
      r.2.mem ((c.tc : Thread nD τ).loc main_v2_0) = Chamfer.distX (m ((c.tc : Thread nD τ).loc main_arg0)) (m ((c.tc : Thread nD τ).loc main_arg1))
      ∧ r.2.mem ((c.tc : Thread nD τ).loc main_v2_1) = Chamfer.distY (m ((c.tc : Thread nD τ).loc main_arg0)) (m ((c.tc : Thread nD τ).loc main_arg1))
      ∧ r.2.mem ((c.tc : Thread nD τ).loc main_v6)
          = Host.scatter scatter_S16_S32768x1_S32768_n_0_0_1 IntOp.addi
              (broadcastInDim S16 ![] bcast_S_S16 (constantI S_ 32 0#32))
              (broadcastInDim S32768x1 ![0] bcast_S32768_S32768x1_0 (m ((c.tc : Thread nD τ).loc main_arg2)))
              (broadcastInDim S32768 ![] bcast_S_S32768 (constantI S_ 32 1#32))
      ∧ r.2.mem ((c.tc : Thread nD τ).loc main_v10)
          = Host.scatter scatter_S16_S32768x1_S32768_n_0_0_1 IntOp.addi
              (broadcastInDim S16 ![] bcast_S_S16 (constantI S_ 32 0#32))
              (broadcastInDim S32768x1 ![0] bcast_S32768_S32768x1_0 (m ((c.tc : Thread nD τ).loc main_arg3)))
              (broadcastInDim S32768 ![] bcast_S_S32768 (constantI S_ 32 1#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).1 2).trans (final2 m c),
        ((h c).1 3).trans (final3 m c),
        ((h c).2 main_v6 (Pipeline.mem_restRefs_of main_v6 (by decide) (by decide))).trans (tail_v6 m c),
        ((h c).2 main_v10 (Pipeline.mem_restRefs_of main_v10 (by decide) (by decide))).trans (tail_v10 m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.KernelIdeal.Run

end
-- ==== Proof.RefValue.lean ====
/-
  The reference program's results as functions of its arguments over the extended reals.

  The reference reshapes the two point arrays into sixteen clouds of 2048 points, forms for every pair
  (point n of cloud b in the first array, point m of cloud b in the second) the number
  max(|x|² + |y|² − 2⟨x, y⟩, 0), each of the three sums over the coordinates accumulated from zero, and
  takes the least such number over m (for the first result) and over n (for the second), each minimum a
  fold of `min` from +∞; the flat position i = 2048 b + n of a result is cloud b = i / 2048, place
  n = i % 2048.  For finite points |x|² + |y|² − 2⟨x, y⟩ is the sum of the squared coordinate
  differences; the expansion distributes products over differences, so it needs every coordinate to be
  a real number.  The two integer results are left as the scatter-adds the program computes.
-/
import proofs.«416648_j18846316495074_3_alg».proof.Proof.Gen.ReferenceIdeal.Run
import proofs.«416648_j18846316495074_3_alg».proof.Proof.Gen.ReferenceIdeal.Read
import proofs.«416648_j18846316495074_3_alg».proof.Proof.ChamferSpec
import proofs.«416648_j18846316495074_3_alg».proof.Proof.SqDist
import proofs.«416648_j18846316495074_3_alg».proof.Proof.MinFold
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

variable (X Y : (⟨S32768x3, .f32⟩ : BufTy).Contents (Elt Ideal))

/-! ## The reshaped arrays at a point's coordinate -/

/-- Coordinate `k` of cloud `b`'s point `n` sits in row `2048 b + n` of the flat array. -/
theorem idx_v0_ix3 (b : Fin 16) (n : Fin 2048) (k : Fin 3) :
    Read.idx_main_v0 (ix3 b n k) = ix2 (Chamfer.row b n) k := by
  funext a
  match a with
  | ⟨0, _⟩ => exact Fin.ext (by show ((b.val * 2048 + n.val) * 3 + k.val) / 3 = b.val * 2048 + n.val; have := k.isLt; omega)
  | ⟨1, _⟩ => exact Fin.ext (by show ((b.val * 2048 + n.val) * 3 + k.val) % 3 = k.val; have := k.isLt; omega)

theorem idx_v1_ix3 (b : Fin 16) (n : Fin 2048) (k : Fin 3) :
    Read.idx_main_v1 (ix3 b n k) = ix2 (Chamfer.row b n) k := by
  funext a
  match a with
  | ⟨0, _⟩ => exact Fin.ext (by show ((b.val * 2048 + n.val) * 3 + k.val) / 3 = b.val * 2048 + n.val; have := k.isLt; omega)
  | ⟨1, _⟩ => exact Fin.ext (by show ((b.val * 2048 + n.val) * 3 + k.val) % 3 = k.val; have := k.isLt; omega)

theorem v0_at (b : Fin 16) (n : Fin 2048) (k : Fin 3) :
    Read.val_main_v0 (F := Ideal) X (ix3 b n k) = X (ix2 (Chamfer.row b n) k) := by
  rw [Read.val_main_v0_apply, idx_v0_ix3]

theorem v1_at (b : Fin 16) (n : Fin 2048) (k : Fin 3) :
    Read.val_main_v1 (F := Ideal) Y (ix3 b n k) = Y (ix2 (Chamfer.row b n) k) := by
  rw [Read.val_main_v1_apply, idx_v1_ix3]

/-! ## The squared norms and the inner product -/

/-- The squared norm of cloud `b`'s point `n` of the first array, accumulated from zero. -/
theorem v3_at (b : Fin 16) (n : Fin 2048) :
    Read.val_main_v3 (F := Ideal) X (ix2 b n)
      = (0 : EReal) + (X (ix2 (Chamfer.row b n) 0) * X (ix2 (Chamfer.row b n) 0)
          + X (ix2 (Chamfer.row b n) 1) * X (ix2 (Chamfer.row b n) 1)
          + X (ix2 (Chamfer.row b n) 2) * X (ix2 (Chamfer.row b n) 2)) := by
  have e : ∀ k : Fin 3, Read.idx_main_v3 (ix2 b n) k = ix3 b n k := fun k => funext fun a => by
    match a with
    | ⟨0, _⟩ => rfl
    | ⟨1, _⟩ => rfl
    | ⟨2, _⟩ => rfl
  rw [Read.val_main_v3_apply, Fin.sum_univ_three]
  simp only [e, Read.val_main_v2_apply, v0_at, Read.val_main_cst_apply, Ideal.ofBits_def, Ideal.mulf_def,
    Chamfer.ofBits_zero]

/-- The squared norm of cloud `b`'s point `n` of the second array, accumulated from zero. -/
theorem v6_at (b : Fin 16) (n : Fin 2048) :
    Read.val_main_v6 (F := Ideal) Y (ix2 b n)
      = (0 : EReal) + (Y (ix2 (Chamfer.row b n) 0) * Y (ix2 (Chamfer.row b n) 0)
          + Y (ix2 (Chamfer.row b n) 1) * Y (ix2 (Chamfer.row b n) 1)
          + Y (ix2 (Chamfer.row b n) 2) * Y (ix2 (Chamfer.row b n) 2)) := by
  have e : ∀ k : Fin 3, Read.idx_main_v6 (ix2 b n) k = ix3 b n k := fun k => funext fun a => by
    match a with
    | ⟨0, _⟩ => rfl
    | ⟨1, _⟩ => rfl
    | ⟨2, _⟩ => rfl
  rw [Read.val_main_v6_apply, Fin.sum_univ_three]
  simp only [e, Read.val_main_v5_apply, v1_at, Read.val_main_cst_0_apply, Ideal.ofBits_def, Ideal.mulf_def,
    Chamfer.ofBits_zero]

/-- The first array's squared norms, spread along the second array's points. -/
theorem v8_at (b : Fin 16) (n mm : Fin 2048) :
    Read.val_main_v8 (F := Ideal) X (ix3 b n mm) = Read.val_main_v3 (F := Ideal) X (ix2 b n) := by
  have e : Read.idx_main_v4 (Read.idx_main_v8 (ix3 b n mm)) = ix2 b n := funext fun a => by
    match a with
    | ⟨0, _⟩ => rfl
    | ⟨1, _⟩ => rfl
  rw [Read.val_main_v8_apply, Read.val_main_v4_apply, e]

/-- The second array's squared norms, spread along the first array's points. -/
theorem v9_at (b : Fin 16) (n mm : Fin 2048) :
    Read.val_main_v9 (F := Ideal) Y (ix3 b n mm) = Read.val_main_v6 (F := Ideal) Y (ix2 b mm) := by
  have e : Read.idx_main_v7 (Read.idx_main_v9 (ix3 b n mm)) = ix2 b mm := funext fun a => by
    match a with
    | ⟨0, _⟩ => rfl
    | ⟨1, _⟩ => rfl
  rw [Read.val_main_v9_apply, Read.val_main_v7_apply, e]

/-- The inner product of cloud `b`'s point `n` of the first array with its point `mm` of the second. -/
theorem v11_at (b : Fin 16) (n mm : Fin 2048) :
    Read.val_main_v11 (F := Ideal) X Y (ix3 b n mm)
      = X (ix2 (Chamfer.row b n) 0) * Y (ix2 (Chamfer.row b mm) 0)
        + X (ix2 (Chamfer.row b n) 1) * Y (ix2 (Chamfer.row b mm) 1)
        + X (ix2 (Chamfer.row b n) 2) * Y (ix2 (Chamfer.row b mm) 2) := by
  have el : ∀ k : Fin 3, Read.lidx_main_v11 (ix3 b n mm) k = ix3 b n k := fun k => funext fun a => by
    match a with
    | ⟨0, _⟩ => rfl
    | ⟨1, _⟩ => rfl
    | ⟨2, _⟩ => rfl
  have er : ∀ k : Fin 3, Read.ridx_main_v11 (ix3 b n mm) k = ix3 b mm k := fun k => funext fun a => by
    match a with
    | ⟨0, _⟩ => rfl
    | ⟨1, _⟩ => rfl
    | ⟨2, _⟩ => rfl
  rw [Read.val_main_v11_apply, Fin.sum_univ_three]
  simp only [el, er, v0_at, v1_at]

/-! ## The clamped squared distance of a pair -/

/-- For finite points the number the reference forms for the pair (n, mm) of cloud `b` is the clamped sum
    of squared coordinate differences. -/
theorem d_at (hX : ∀ i, ∃ r : ℝ, X i = (r : EReal)) (hY : ∀ i, ∃ r : ℝ, Y i = (r : EReal))
    (b : Fin 16) (n mm : Fin 2048) :
    Read.val_main_v16 (F := Ideal) X Y (ix3 b n mm) = Chamfer.sq (Chamfer.pt X b n) (Chamfer.pt Y b mm) := by
  rw [Read.val_main_v16_apply, Read.val_main_v14_apply, Read.val_main_v10_apply, Read.val_main_v13_apply,
    v8_at, v9_at, v3_at, v6_at, v11_at, Read.val_main_v12_apply, Read.val_main_cst_1_apply,
    Read.val_main_v15_apply, Read.val_main_cst_2_apply]
  simp only [Ideal.ofBits_def, Ideal.maximumf_def, Ideal.subf_def, Ideal.addf_def, Ideal.mulf_def,
    Chamfer.ofBits_zero, Chamfer.ofBits_two]
  unfold Chamfer.sq Chamfer.pt
  obtain ⟨a0, h0⟩ := hX (ix2 (Chamfer.row b n) 0)
  obtain ⟨a1, h1⟩ := hX (ix2 (Chamfer.row b n) 1)
  obtain ⟨a2, h2⟩ := hX (ix2 (Chamfer.row b n) 2)
  obtain ⟨b0, g0⟩ := hY (ix2 (Chamfer.row b mm) 0)
  obtain ⟨b1, g1⟩ := hY (ix2 (Chamfer.row b mm) 1)
  obtain ⟨b2, g2⟩ := hY (ix2 (Chamfer.row b mm) 2)
  rw [h0, h1, h2, g0, g1, g2]
  exact congrArg (fun t : EReal => max t 0) (Chamfer.sq_dist_expand a0 a1 a2 b0 b1 b2).symm

/-! ## The two minima -/

/-- The shape facts of the two reductions, in the form the coordinate-inserting map is defined from. -/
theorem reduces_d2 : S16x2048x2048.Reduces [2] S16x2048 := by decide
theorem reduces_d1 : S16x2048x2048.Reduces [1] S16x2048 := by decide

/-- Inserting the last coordinate. -/
theorem lift_d2 (b : Fin 16) (n : Fin 2048) (k : Fin 2048) :
    reduces_d2.lift (ix2 b n) k = ix3 b n k := by
  funext c; apply Fin.ext
  fin_cases c <;> rfl

/-- Inserting the middle coordinate. -/
theorem lift_d1 (b : Fin 16) (mm : Fin 2048) (k : Fin 2048) :
    reduces_d1.lift (ix2 b mm) k = ix3 b k mm := by
  funext c; apply Fin.ext
  fin_cases c <;> rfl

/-- The least clamped squared distance from point `n` of cloud `b` in the first array to the second array's
    points of that cloud. -/
theorem v17_at (hX : ∀ i, ∃ r : ℝ, X i = (r : EReal)) (hY : ∀ i, ∃ r : ℝ, Y i = (r : EReal))
    (b : Fin 16) (n : Fin 2048) :
    Read.val_main_v17 (F := Ideal) X Y (ix2 b n)
      = Finset.univ.fold min ⊤ fun mm : Fin 2048 => Chamfer.sq (Chamfer.pt X b n) (Chamfer.pt Y b mm) := by
  unfold Read.val_main_v17
  refine (Host.reduce_eq_fold_single FloatOps.minimumf _ _ reducesTo_S16x2048x2048_S16x2048_d2 reduces_d2 h_S_
    (ix2 b n)).trans ?_
  show Finset.fold min (Ideal.ofBits .f32 0x7F800000#32)
    (fun k : Fin 2048 => Read.val_main_v16 (F := Ideal) X Y (reduces_d2.lift (ix2 b n) k)) Finset.univ = _
  rw [Chamfer.ofBits_inf]
  refine Finset.fold_congr fun mm _ => ?_
  rw [lift_d2, d_at X Y hX hY]

/-- The least clamped squared distance from point `mm` of cloud `b` in the second array to the first array's
    points of that cloud. -/
theorem v19_at (hX : ∀ i, ∃ r : ℝ, X i = (r : EReal)) (hY : ∀ i, ∃ r : ℝ, Y i = (r : EReal))
    (b : Fin 16) (mm : Fin 2048) :
    Read.val_main_v19 (F := Ideal) X Y (ix2 b mm)
      = Finset.univ.fold min ⊤ fun nn : Fin 2048 => Chamfer.sq (Chamfer.pt X b nn) (Chamfer.pt Y b mm) := by
  unfold Read.val_main_v19
  refine (Host.reduce_eq_fold_single FloatOps.minimumf _ _ reducesTo_S16x2048x2048_S16x2048_d1 reduces_d1 h_S_
    (ix2 b mm)).trans ?_
  show Finset.fold min (Ideal.ofBits .f32 0x7F800000#32)
    (fun k : Fin 2048 => Read.val_main_v16 (F := Ideal) X Y (reduces_d1.lift (ix2 b mm) k)) Finset.univ = _
  rw [Chamfer.ofBits_inf]
  refine Finset.fold_congr fun nn _ => ?_
  rw [lift_d1, d_at X Y hX hY]

/-! ## The two float results, whole -/

/-- Flat position `i` of a result is cloud `i / 2048`, place `i % 2048`. -/
theorem v18_eq (hX : ∀ i, ∃ r : ℝ, X i = (r : EReal)) (hY : ∀ i, ∃ r : ℝ, Y i = (r : EReal)) :
    Read.val_main_v18 (F := Ideal) X Y = Chamfer.distX X Y := by
  funext i
  have e : Read.idx_main_v18 i = ix2 (Chamfer.cloud (i 0)) (Chamfer.within (i 0)) := funext fun a => by
    match a with
    | ⟨0, _⟩ => rfl
    | ⟨1, _⟩ => rfl
  rw [Read.val_main_v18_apply, e, v17_at X Y hX hY]
  rfl

theorem v20_eq (hX : ∀ i, ∃ r : ℝ, X i = (r : EReal)) (hY : ∀ i, ∃ r : ℝ, Y i = (r : EReal)) :
    Read.val_main_v20 (F := Ideal) X Y = Chamfer.distY X Y := by
  funext i
  have e : Read.idx_main_v20 i = ix2 (Chamfer.cloud (i 0)) (Chamfer.within (i 0)) := funext fun a => by
    match a with
    | ⟨0, _⟩ => rfl
    | ⟨1, _⟩ => rfl
  rw [Read.val_main_v20_apply, e, v19_at X Y hX hY]
  rfl

/-! ## The run -/

/-- From finite point arrays every weakly fair execution of the reference terminates with its first result
    the least clamped squared distances of the first array's points, its second result those of the second
    array's points, the two integer results the scatter-adds of ones by the two id arrays, and the four
    arguments unchanged. -/
theorem run_spec (m' : (ℓ : Loc nD τ sig) → Buf (Elt Ideal) ℓ) (ρ' : Dev nD → PrngReg)
    (hX : ∀ (c : Dev nD) (i : S32768x3.Idx), ∃ r : ℝ, m' ((c.tc : Thread nD τ).loc main_arg0) i = (r : EReal))
    (hY : ∀ (c : Dev nD) (i : S32768x3.Idx), ∃ r : ℝ, m' ((c.tc : Thread nD τ).loc main_arg1) i = (r : EReal)) :
    θ_run (Cert.ReferenceIdeal.defs (F := Ideal)) (onTc (τ := τ) (main (F := Ideal))) ⟨m', fun _ => 0, ρ'⟩ fun r => ∀ c : Dev nD,
      r.2.mem ((c.tc : Thread nD τ).loc main_v18) = Chamfer.distX (m' ((c.tc : Thread nD τ).loc main_arg0)) (m' ((c.tc : Thread nD τ).loc main_arg1))
      ∧ r.2.mem ((c.tc : Thread nD τ).loc main_v20) = Chamfer.distY (m' ((c.tc : Thread nD τ).loc main_arg0)) (m' ((c.tc : Thread nD τ).loc main_arg1))
      ∧ r.2.mem ((c.tc : Thread nD τ).loc main_v24) = Host.scatter scatter_S16_S32768x1_S32768_n_0_0_1 IntOp.addi (broadcastInDim S16 ![] bcast_S_S16 (constantI S_ 32 0#32)) (broadcastInDim S32768x1 ![0] bcast_S32768_S32768x1_0 (m' ((c.tc : Thread nD τ).loc main_arg2))) (broadcastInDim S32768 ![] bcast_S_S32768 (constantI S_ 32 1#32))
      ∧ r.2.mem ((c.tc : Thread nD τ).loc main_v28) = Host.scatter scatter_S16_S32768x1_S32768_n_0_0_1 IntOp.addi (broadcastInDim S16 ![] bcast_S_S16 (constantI S_ 32 0#32)) (broadcastInDim S32768x1 ![0] bcast_S32768_S32768x1_0 (m' ((c.tc : Thread nD τ).loc main_arg3))) (broadcastInDim S32768 ![] bcast_S_S32768 (constantI S_ 32 1#32))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  (θ_run defs _ _).mono (fun _ h c =>
      ⟨(h c).1.trans ((Read.val_main_v18_eq _ _).trans (v18_eq _ _ (hX c) (hY c))),
        (h c).2.1.trans ((Read.val_main_v20_eq _ _).trans (v20_eq _ _ (hX c) (hY c))),
        (h c).2.2⟩)
    (Value.run (F := Ideal) m' ρ')

end Cert.ReferenceIdeal.RefValue

end
-- ==== Proof.FiniteInputs.lean ====
/-
  From the precondition to finiteness of the two point arrays.

  The precondition is the conjunction of two tests, one per point array: every entry's absolute value
  lies strictly below +∞, all entries taken together by an and-reduction from 1.  An and-reduction that
  comes out 1 met a 1 at every position, so the comparison holds entry by entry; and over the extended
  reals `max x (-x) < ⊤` excludes both `x = ⊤` and `x = ⊥` (whose negation is `⊤`), so `x` is a real
  number.  The two integer arrays play no part.
-/
import proofs.«416648_j18846316495074_3_alg».proof.Pre_finite_inputs
import Idealize.ShloMosaic.PureOps.Ideal
import Idealize.ShloMosaic.PureOps.Ideal.Laws
import Idealize.ShloMosaic.Lib.ReduceAll

noncomputable section

namespace Cert.ReferenceIdeal.RefValue

open Idealize.ShloMosaic Cert.Pre_finite_inputs

/-- The shape of a scalar has one index. -/
instance subsingleton_scalar_idx : Subsingleton S_.Idx := ⟨fun a b => funext fun d => d.elim0⟩

/-- An extended real whose absolute value `max x (-x)` is strictly below `⊤` is a real number. -/
theorem real_of_abs_lt_top (x : EReal) (h : max x (-x) < ⊤) : ∃ r : ℝ, x = (r : EReal) := by
  induction x with
  | bot => exact absurd h (by simp)
  | coe r => exact ⟨r, rfl⟩
  | top => exact absurd h (by simp)

/-- One test of the precondition, read entry by entry: if the and-reduction of `|x| < +∞` over the whole
    array is 1 then every entry of the array is a real number. -/
theorem finite_of_all [Facts] (X : FVec Ideal S32768x3 .f32)
    (h : (fun x v => Host.reduce IntOp.andi x v Facts.reducesTo_S32768x3_S_d0_1 Facts.h_S_)
          (cmpf .olt (Host.absf X)
            (broadcastInDim S32768x3 ![] Facts.bcast_S_S32768x3 (constant (F := Ideal) S_ .f32 0x7F800000#32)))
          (constantI S_ 1 1#1) = fun _ => 1#1) :
    ∀ i, ∃ r : ℝ, X i = (r : EReal) := by
  intro i
  have e := Host.reduce_andi_all _ _ Facts.reducesTo_S32768x3_S_d0_1 Facts.h_S_
    (fun d => d.elim0) (congrFun h _) i
  have e' : Ideal.cmp .olt (max (X i) (-(X i))) (Ideal.ofBits .f32 0x7F800000#32) = 1#1 := e
  have ht : Ideal.ofBits .f32 0x7F800000#32 = (⊤ : EReal) := by simp [Ideal.ofBits, Ideal.ieee]
  rw [ht] at e'
  refine real_of_abs_lt_top (X i) ?_
  by_contra hn
  have e0 : BitVec.ofBool (decide (max (X i) (-(X i)) < ⊤)) = 1#1 := e'
  rw [decide_eq_false hn] at e0
  exact absurd e0 (by decide)

/-- The precondition gives finiteness: if the test of the two point arrays comes out 1, every entry of
    either array is a real number. -/
theorem finite_of_pre [Facts] (X Y : FVec Ideal S32768x3 .f32) (I J : IVec S32768 32)
    (h : fn (F := Ideal) X Y I J = (fun _ => 1#1)) :
    (∀ i, ∃ r : ℝ, X i = (r : EReal)) ∧ (∀ i, ∃ r : ℝ, Y i = (r : EReal)) := by
  have h0 := congrFun h (fun d => d.elim0)
  dsimp only [fn] at h0
  obtain ⟨hx, hy⟩ := IntOp.andi_eq_one.1 h0
  refine ⟨finite_of_all X (funext fun j => ?_), finite_of_all Y (funext fun j => ?_)⟩
  · rw [Subsingleton.elim j (fun d => d.elim0)]; exact hx
  · rw [Subsingleton.elim j (fun d => d.elim0)]; exact hy

end Cert.ReferenceIdeal.RefValue

end
-- ==== Proof.lean ====
/-
  Segment-aware Chamfer distance: the kernel against its reference, over the extended reals.

  The 32768 points of each of two arrays are sixteen clouds of 2048 points in ℝ³.  For every point the
  programs return the least squared distance to a point of the SAME cloud in the other array, clamped
  below at zero, and beside these the sizes of the segments named by two id arrays.

  The kernel takes one cloud per grid point.  It walks the cloud's key points in two chunks of 1024,
  forms for each chunk the table of squared distances coordinate by coordinate, Σ_d (x_d − y_d)², keeps
  a running minimum per query point across the two chunks and writes each key point's minimum over
  the query points chunk by chunk.  The reference expands the square, |x|² + |y|² − 2⟨x, y⟩, with the
  inner products from one batched matrix product, and takes the two minima over whole axes.

  The two agree because (a) for FINITE coordinates the two expressions of the squared distance are one
  real number — the expansion distributes products over differences, which fails at ±∞, so this is
  where the precondition is used —, and (b) a minimum over 2048 candidates taken in two halves, started
  at ⊤, is the minimum over all of them.  Both programs end with the same integer scatter-adds of the
  id arrays, which neither touches otherwise.

  The specification (`Chamfer.distX`, `Chamfer.distY`) is stated in the kernel's own arrangement; the
  kernel's run is read against it block by block, the reference's run index by index.
-/
import proofs.«416648_j18846316495074_3_alg».proof.Defs
import proofs.«416648_j18846316495074_3_alg».proof.Proof.Gen.Kernel
import proofs.«416648_j18846316495074_3_alg».proof.Proof.Gen.KernelIdeal
import proofs.«416648_j18846316495074_3_alg».proof.Proof.Gen.ReferenceIdeal
import proofs.«416648_j18846316495074_3_alg».proof.Proof.Gen.Pre_finite_inputs
import proofs.«416648_j18846316495074_3_alg».proof.Proof.KernelFrame
import proofs.«416648_j18846316495074_3_alg».proof.Proof.KernelRun
import proofs.«416648_j18846316495074_3_alg».proof.Proof.RefValue
import proofs.«416648_j18846316495074_3_alg».proof.Proof.FiniteInputs
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference is a straight line of host operations: its run with the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- From finite point arrays both programs end with `distX`, `distY` of the point arrays and the segment sizes
    of the id arrays: the kernel by its run read block by block, the reference by its run read index by index
    (where finiteness joins the two expressions of a squared distance). -/
theorem algebraic : Cert.algebraic_KernelIdeal_ReferenceIdeal := by
  intro m ρ m' ρ' hpre hagree
  have hfin := fun c => Cert.ReferenceIdeal.RefValue.finite_of_pre _ _ _ _ (hpre c)
  refine ⟨_, _, _, _, Cert.KernelIdeal.Run.run_spec m ρ, ?_⟩
  refine (θ_run Cert.ReferenceIdeal.defs _ _).mono (fun _ h c => ?_)
    (Cert.ReferenceIdeal.RefValue.run_spec m' ρ'
      (fun c i => by rw [(hagree c).1]; exact (hfin c).1 i)
      (fun c i => by rw [(hagree c).2.1]; exact (hfin c).2 i))
  obtain ⟨e0, e1, e2, e3⟩ := hagree c
  obtain ⟨r18, r20, r24, r28, a0, a1, a2, a3⟩ := h c
  refine ⟨r18.trans ?_, r20.trans ?_, r24.trans ?_, r28.trans ?_, a0, a1, a2, a3⟩
  · rw [e0, e1]
  · rw [e0, e1]
  · rw [e2]; rfl
  · rw [e3]; rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
